-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4096x512 : Shape := ⟨2, ![4096, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  reducesTo_S_S_d : S_.ReducesTo [] S_

variable [Facts]

def fn_part1 {F : FTy → Type} [FloatOps F] (main_arg4 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S32768x512 .f32) (main_arg1 : FVec F S4096x512 .f32) (main_arg2 : FVec F S_ .f32) (main_arg3 : FVec F S_ .f32) (main_arg4 : FVec F S_ .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_v12 main_v15
-- ==== Kernel.lean ====
abbrev S32768x512 : Shape := ⟨2, ![32768, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S32768x4096 : Shape := ⟨2, ![32768, 4096]⟩
abbrev S2x1x4096 : Shape := ⟨3, ![2, 1, 4096]⟩
abbrev S2x1x1 : Shape := ⟨3, ![2, 1, 1]⟩
abbrev S256x512 : Shape := ⟨2, ![256, 512]⟩
abbrev S256x4096 : Shape := ⟨2, ![256, 4096]⟩
abbrev S1x1x4096 : Shape := ⟨3, ![1, 1, 4096]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩
abbrev S1 : Shape := ⟨1, ![1]⟩
abbrev S2x4096 : Shape := ⟨2, ![2, 4096]⟩
abbrev S2 : Shape := ⟨1, ![2]⟩

abbrev nBuf : Space → Nat
  | .hbm => 40
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S4096x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x512, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S32768x512, .f32⟩
  | .hbm, ⟨12, _⟩ => ⟨S32768x4096, .f32⟩
  | .hbm, ⟨13, _⟩ => ⟨S2x1x4096, .f32⟩
  | .hbm, ⟨14, _⟩ => ⟨S2x1x1, .f32⟩
  | .hbm, ⟨15, _⟩ => ⟨S2x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S1x4096, .f32⟩
  | .local _ .vmem, ⟨4, _⟩ => ⟨S256x512, .f32⟩
  | .local _ .vmem, ⟨5, _⟩ => ⟨S256x512, .f32⟩
  | .local _ .vmem, ⟨6, _⟩ => ⟨S256x4096, .f32⟩
  | .local _ .vmem, ⟨7, _⟩ => ⟨S256x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x1, .f32⟩
  | .local _ .vmem, ⟨11, _⟩ => ⟨S1x1x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x4096_S256 : S256x4096.Reduces [1] S256
  reduces_S256x1_S1 : S256x1.Reduces [0] S1
  shapeCasts_S1_S1x1 : S1.ShapeCasts S1x1
  reduces_S256x4096_S4096 : S256x4096.Reduces [0] S4096
  shapeCasts_S4096_S1x4096 : S4096.ShapeCasts S1x4096
  shapeCasts_S2x1x4096_S2x4096 : S2x1x4096.ShapeCasts S2x4096
  reducesTo_S2x4096_S4096_d0 : S2x4096.ReducesTo [0] S4096
  bcast_S_S4096 : S_.BroadcastsInDim S4096 (![] : Fin 0 → Fin S4096.rank)
  reducesTo_S4096_S_d0 : S4096.ReducesTo [0] S_
  shapeCasts_S2x1x1_S2 : S2x1x1.ShapeCasts S2
  reducesTo_S2_S_d0 : S2.ReducesTo [0] S_
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S32768x512.size a
  hwx0_3 : ∀ i : grid0.Coords, EltTy.bits .f32 = 32 ∨ (Rect.block (s := S32768x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S32768x4096.size a
  hwx0_4 : ∀ i : grid0.Coords, EltTy.bits .f32 = 32 ∨ (Rect.block (s := S32768x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S2x1x4096.size a
  hwx0_5 : ∀ i : grid0.Coords, EltTy.bits .f32 = 32 ∨ (Rect.block (s := S2x1x4096) S1x1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S4096x512 : Shape := ⟨2, ![4096, 512]⟩
abbrev S_ : Shape := ⟨0, ![]⟩
abbrev S32768 : Shape := ⟨1, ![32768]⟩
abbrev S32768x1 : Shape := ⟨2, ![32768, 1]⟩
abbrev S512x4096 : Shape := ⟨2, ![512, 4096]⟩
abbrev S32768x4096 : Shape := ⟨2, ![32768, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S4096x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32768x512, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x512, .f32⟩
  | .hbm, ⟨14, _⟩ => ⟨S32768x512, .f32⟩
  | .hbm, ⟨15, _⟩ => ⟨S512x4096, .f32⟩
  | .hbm, ⟨16, _⟩ => ⟨S32768x4096, .f32⟩
  | .hbm, ⟨17, _⟩ => ⟨S32768x512, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S1x4096, .f32⟩
  | .hbm, ⟨26, _⟩ => ⟨S32768x4096, .f32⟩
  | .hbm, ⟨27, _⟩ => ⟨S32768x4096, .f32⟩
  | .hbm, ⟨28, _⟩ => ⟨S32768x4096, .f32⟩
  | .hbm, ⟨29, _⟩ => ⟨S512x4096, .f32⟩
  | .hbm, ⟨30, _⟩ => ⟨S32768x4096, .f32⟩
  | .hbm, ⟨31, _⟩ => ⟨S_, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S_, .f32⟩
  | .hbm, ⟨36, _⟩ => ⟨S32768x4096, .f32⟩
  | .hbm, ⟨37, _⟩ => ⟨S32768x4096, .f32⟩
  | .hbm, ⟨38, _⟩ => ⟨S32768x4096, .f32⟩
  | .hbm, ⟨39, _⟩ => ⟨S_, .f32⟩
  | .hbm, ⟨40, _⟩ => ⟨S32768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  transposes_S4096x512_S512x4096_1_0 : S4096x512.Transposes [1, 0] S512x4096
  reducesTo_S4096x512_S4096_d1 : S4096x512.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S32768x1_S32768x4096_0_1 : S32768x1.BroadcastsInDim S32768x4096 (![0, 1] : Fin 2 → Fin S32768x4096.rank)
  bcast_S1x4096_S32768x4096_0_1 : S1x4096.BroadcastsInDim S32768x4096 (![0, 1] : Fin 2 → Fin S32768x4096.rank)
  bcast_S_S32768x4096 : S_.BroadcastsInDim S32768x4096 (![] : Fin 0 → Fin S32768x4096.rank)
  reducesTo_S32768x4096_S32768_d1 : S32768x4096.ReducesTo [1] S32768
  reducesTo_S32768_S_d0 : S32768.ReducesTo [0] S_
  reducesTo_S32768x4096_S4096_d0 : S32768x4096.ReducesTo [0] S4096
  reducesTo_S4096_S_d0 : S4096.ReducesTo [0] S_
  dot_S32768x512_S512x4096_S32768x4096_1_0_0_1_n_n_wf : DotDims.WF S32768x512 S512x4096 S32768x4096 [1] [0] [0] [1] [] []

variable [Facts₀]

def dot_S32768x512_S512x4096_S32768x4096_1_0_0_1_n_n : DotDims S32768x512 S512x4096 S32768x4096 where
  lhsContracting := [1]
  rhsContracting := [0]
  lhsNonContracting := [0]
  rhsNonContracting := [1]
  lhsBatch := []
  rhsBatch := []
  wf := dot_S32768x512_S512x4096_S32768x4096_1_0_0_1_n_n_wf

class Facts : Prop extends Facts₀ where

variable [Facts]
-- ==== Proof.KPieces.lean ====
/-
  What each control case of the kernel body leaves in the four output buffers, as the body's own
  arithmetic: the normalized block, the logits block, the running column minimum and the running
  row sum, the last two over what the buffer held before (the reset values at a core's first tile).
-/
import proofs.«400168_j37958920962068_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Val

open Cert.KernelIdeal Cert.KernelIdeal.Gen

variable {F : FTy → Type} [FloatOps F]

/-- The zero offset of a rank-two buffer, as the constant function. -/
private theorem hz2 : (![0, 0] : Fin 2 → Nat) = fun _ => 0 := funext fun a => by fin_cases a <;> rfl

/-- The zero offset of a rank-three buffer, as the constant function. -/
private theorem hz3 : (![0, 0, 0] : Fin 3 → Nat) = fun _ => 0 := funext fun a => by fin_cases a <;> rfl

/-- At a core's first tile the normalized block's buffer ends with one store over all of it: the input block divided by its clamped row norms. -/
theorem out_A_3 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : cond0_0 i) (x0 : Vec F S256x512 .f32) (x1 : Vec F S4096x512 .bf16) (x2 : Vec F S1x4096 .f32) :
    out0_A_3 c i arg2 harg2 arg3 harg3 arg4 harg4 arg5 harg5 arg6 harg6 arg7 harg7 arg8 harg8 hc0 x0 x1 x2 = k0_pay5 x0 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, View.ld_unit_zero (S := S256x512) hz2]

/-- At a core's first tile the second output's buffer ends with one store over all of it: the inner products of the rows of the normalized block, rounded to half width, with the rows of the second input. -/
theorem out_A_4 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : cond0_0 i) (x0 : Vec F S256x512 .f32) (x1 : Vec F S4096x512 .bf16) (x2 : Vec F S1x4096 .f32) :
    out0_A_4 c i arg2 harg2 arg3 harg3 arg4 harg4 arg5 harg5 arg6 harg6 arg7 harg7 arg8 harg8 hc0 x0 x1 x2 = k0_pay6 x0 x1 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, View.ld_unit_zero (S := S256x512) hz2, View.ld_unit_zero (S := S4096x512) hz2]

/-- At a core's first tile the column minimum's buffer is first set to plus infinity and read back; the store that ends the body, over all of it, is the minimum of that reset value and the column minimum of the block the body forms from the row norms, the third input and twice the inner products. -/
theorem out_A_5 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : cond0_0 i) (x0 : Vec F S256x512 .f32) (x1 : Vec F S4096x512 .bf16) (x2 : Vec F S1x4096 .f32) :
    out0_A_5 c i arg2 harg2 arg3 harg3 arg4 harg4 arg5 harg5 arg6 harg6 arg7 harg7 arg8 harg8 hc0 x0 x1 x2 = k0_pay2 (k0_pay7 x0 x1 x2) (k0_pay3 (F := F)) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x4096) hz3, View.readCov_unit_zero (S := S1x1x4096) _ hz3]
  simp only [View.readAt_eq_ld, harg2.read_unread, harg3.read_unread, harg4.read_unread, View.ld_unit_zero (S := S256x512) hz2, View.ld_unit_zero (S := S4096x512) hz2, View.ld_unit_zero (S := S1x4096) hz2]

/-- At a core's first tile the row sum's buffer is first set to zero and read back; the store that ends the body, over all of it, is that reset value plus the tile's sum. -/
theorem out_A_6 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : cond0_0 i) (x0 : Vec F S256x512 .f32) (x1 : Vec F S4096x512 .bf16) (x2 : Vec F S1x4096 .f32) :
    out0_A_6 c i arg2 harg2 arg3 harg3 arg4 harg4 arg5 harg5 arg6 harg6 arg7 harg7 arg8 harg8 hc0 x0 x1 x2 = k0_pay1 (k0_pay8 x0 x1 x2) (k0_pay4 (F := F)) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, View.ld_unit_zero (S := S256x512) hz2, View.ld_unit_zero (S := S4096x512) hz2, View.ld_unit_zero (S := S1x4096) hz2]

/-- At a later tile the normalized block's buffer ends with the same one store as at the first. -/
theorem out_B_3 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : ¬cond0_0 i) (x0 : Vec F S256x512 .f32) (x1 : Vec F S4096x512 .bf16) (x2 : Vec F S1x4096 .f32) (xo5 : Vec F S1x1x4096 .f32) (xo6 : Vec F S1x1x1 .f32) :
    out0_B_3 c i arg2 harg2 arg3 harg3 arg4 harg4 arg5 harg5 arg6 harg6 arg7 harg7 arg8 harg8 hc0 x0 x1 x2 xo5 xo6 = k0_pay5 x0 := by
  unfold out0_B_3
  rw [View.read_writes_eq_canon _ _ _ (cover0_B_3 c i arg2 harg2 arg3 harg3 arg4 harg4 arg5 harg5 arg6 harg6 arg7 harg7 arg8 harg8 hc0 x0 x1 x2 xo5 xo6)]
  unfold kernelRun0_B
  dsimp only
  sl_unfold_words
  rw [View.canon_unit_zero hz2]
  simp only [View.readAt_eq_ld, harg2.read_unread, View.ld_unit_zero (S := S256x512) hz2]

/-- At a later tile the second output's buffer ends with the same one store as at the first. -/
theorem out_B_4 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : ¬cond0_0 i) (x0 : Vec F S256x512 .f32) (x1 : Vec F S4096x512 .bf16) (x2 : Vec F S1x4096 .f32) (xo5 : Vec F S1x1x4096 .f32) (xo6 : Vec F S1x1x1 .f32) :
    out0_B_4 c i arg2 harg2 arg3 harg3 arg4 harg4 arg5 harg5 arg6 harg6 arg7 harg7 arg8 harg8 hc0 x0 x1 x2 xo5 xo6 = k0_pay6 x0 x1 := by
  unfold out0_B_4
  rw [View.read_writes_eq_canon _ _ _ (cover0_B_4 c i arg2 harg2 arg3 harg3 arg4 harg4 arg5 harg5 arg6 harg6 arg7 harg7 arg8 harg8 hc0 x0 x1 x2 xo5 xo6)]
  unfold kernelRun0_B
  dsimp only
  sl_unfold_words
  rw [View.canon_unit_zero hz2]
  simp only [View.readAt_eq_ld, harg2.read_unread, harg3.read_unread, View.ld_unit_zero (S := S256x512) hz2, View.ld_unit_zero (S := S4096x512) hz2]

/-- At a later tile nothing is reset: the one store over the column minimum's buffer is the minimum of what the buffer held and the column minimum of that same block. -/
theorem out_B_5 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : ¬cond0_0 i) (x0 : Vec F S256x512 .f32) (x1 : Vec F S4096x512 .bf16) (x2 : Vec F S1x4096 .f32) (xo5 : Vec F S1x1x4096 .f32) (xo6 : Vec F S1x1x1 .f32) :
    out0_B_5 c i arg2 harg2 arg3 harg3 arg4 harg4 arg5 harg5 arg6 harg6 arg7 harg7 arg8 harg8 hc0 x0 x1 x2 xo5 xo6 = k0_pay2 (k0_pay7 x0 x1 x2) xo5 := by
  unfold out0_B_5
  rw [View.read_writes_eq_canon _ _ _ (cover0_B_5 c i arg2 harg2 arg3 harg3 arg4 harg4 arg5 harg5 arg6 harg6 arg7 harg7 arg8 harg8 hc0 x0 x1 x2 xo5 xo6)]
  unfold kernelRun0_B
  dsimp only
  sl_unfold_words
  rw [View.canon_unit_zero hz3]
  simp only [View.readAt_eq_ld, harg2.read_unread, harg3.read_unread, harg4.read_unread, harg7.read_unread, View.ld_unit_zero (S := S256x512) hz2, View.ld_unit_zero (S := S4096x512) hz2, View.ld_unit_zero (S := S1x4096) hz2, View.ld_unit_zero (S := S1x1x4096) hz3]

/-- At a later tile nothing is reset: the one store over the row sum's buffer is what the buffer held plus the tile's sum. -/
theorem out_B_6 (c : Dev nD) (i : grid0.Coords) (arg2 : Memref sig .tc .vmem S256x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S256x512 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x1x1 .f32) (harg8 : arg8.IsWhole) (hc0 : ¬cond0_0 i) (x0 : Vec F S256x512 .f32) (x1 : Vec F S4096x512 .bf16) (x2 : Vec F S1x4096 .f32) (xo5 : Vec F S1x1x4096 .f32) (xo6 : Vec F S1x1x1 .f32) :
    out0_B_6 c i arg2 harg2 arg3 harg3 arg4 harg4 arg5 harg5 arg6 harg6 arg7 harg7 arg8 harg8 hc0 x0 x1 x2 xo5 xo6 = k0_pay1 (k0_pay8 x0 x1 x2) xo6 := by
  unfold out0_B_6
  rw [View.read_writes_eq_canon _ _ _ (cover0_B_6 c i arg2 harg2 arg3 harg3 arg4 harg4 arg5 harg5 arg6 harg6 arg7 harg7 arg8 harg8 hc0 x0 x1 x2 xo5 xo6)]
  unfold kernelRun0_B
  dsimp only
  sl_unfold_words
  rw [View.canon_unit_zero hz3]
  simp only [View.readAt_eq_ld, harg2.read_unread, harg3.read_unread, harg4.read_unread, harg8.read_unread, View.ld_unit_zero (S := S256x512) hz2, View.ld_unit_zero (S := S4096x512) hz2, View.ld_unit_zero (S := S1x4096) hz2, View.ld_unit_zero (S := S1x1x1) hz3]

end Cert.KernelIdeal.Val

end
-- ==== Proof.Spec.lean ====
/-
  The common reading of both programs, one row at a time, over the extended reals.
  A row `xr` of the input is divided by its clamped norm `max (√(∑ xr²)) eps`; a logit is the
  inner product of a normalized row with a row `wr` of the weights; a squared distance is
  `(‖xn‖² + ‖w‖²) - 2·⟨xn, w⟩`, and a distance is its clamped root `√(max · 0)`.
-/
import Idealize.ShloMosaic.PureOps.Ideal

noncomputable section

namespace Cert.Spec

open Idealize.ShloMosaic

/-- The floor under a row's norm. -/
abbrev eps : EReal := Ideal.ofBits .f32 0x2B8CBCCC#32
/-- The factor of the cross term. -/
abbrev two : EReal := Ideal.ofBits .f32 0x40000000#32

/-- The clamped root `√(max v 0)`. -/
def gsq (v : EReal) : EReal := Ideal.sqrt (max v 0)

/-- Entry `k` of the row `xr` divided by its clamped norm. -/
def xnRow (xr : Fin 512 → EReal) (k : Fin 512) : EReal :=
  Ideal.div (xr k) (max (Ideal.sqrt (∑ k', xr k' * xr k')) eps)

/-- The inner product of the normalized row with the weight row `wr`. -/
def logitRow (xr wr : Fin 512 → EReal) : EReal := ∑ k, xnRow xr k * wr k

/-- The squared distance of the normalized row to the weight row, `w2` the weight row's squared norm. -/
def d2Row (xr wr : Fin 512 → EReal) (w2 : EReal) : EReal :=
  ((∑ k, xnRow xr k * xnRow xr k) + w2) - two * logitRow xr wr

end Cert.Spec

end
-- ==== Proof.KPayIdx.lean ====
/-
  The kernel body's arithmetic at the extended reals, read one entry at a time: a normalized entry
  is the row's reading `xnRow`, a logit the inner product `logitRow`, a squared distance `d2Row`;
  the tile's row sum adds the clamped roots of the rows' minima; the column minimum folds a tile's
  rows into what the buffer held; the row-sum update adds the tile's sum to what the buffer held.
-/
import proofs.«400168_j37958920962068_3_alg».proof.Proof.Gen.KernelIdeal.Skeleton
import proofs.«400168_j37958920962068_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Val

open Cert.KernelIdeal Cert.KernelIdeal.Gen Cert.Spec

section Pointwise
variable {s : Shape} {φ : FTy}

/-- A square root at an index is the extended reals' root of the element. -/
private theorem sqrt_apply (v : FVec Ideal s φ) (i : s.Idx) : sqrt v i = Ideal.sqrt (v i) := rfl

/-- A scalar constant is the extended real its word encodes. -/
private theorem scalar_ofBits (b : BitVec φ.bits) : Scalar.ofBits (F := Ideal) φ b = Ideal.ofBits φ b := rfl

end Pointwise

section Layout
variable {α : Type}

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums

/-- The sum along the lanes of a two-axis vector, read at a row: the sum of the row's entries. -/
private theorem laneSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  refine Fin.ext ?_
  rw [Shape.Reduces.lift_val]
  match c with
  | ⟨0, _⟩ => rfl
  | ⟨1, _⟩ => rfl

end Sums

theorem pay5_apply (xb : Vec Ideal S256x512 .f32) (r : Fin 256) (k : Fin 512) :
    k0_pay5 (F := Ideal) xb (ix2 r k) = xnRow (fun k' => xb (ix2 r k')) k := by
  unfold k0_pay5 xnRow
  rw [divf_apply, broadcastTo_a1_ab_apply, maximumf_apply, broadcast_apply]
  show Ideal.div (xb (ix2 r k)) (max (Ideal.sqrt (shapeCast S256x1 _ shapeCasts_S256_S256x1 (ix2 r (0 : Fin 1)))) eps) = _
  rw [shapeCast_a_a1_apply, laneSum_apply]
  rfl

section Product

/-- The left operand's row coordinate is the result's row. -/
private theorem lhs_pay6_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
/-- The left operand's lane coordinate is the contraction's coordinate. -/
private theorem lhs_pay6_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
/-- The right operand's row coordinate is the result's column. -/
private theorem rhs_pay6_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
/-- The right operand's lane coordinate is the contraction's coordinate. -/
private theorem rhs_pay6_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- The product of a `[256, 512]` operand with a `[4096, 512]` operand contracted along the lanes of both, into the
    zero accumulator, read at `(r, p)`: the inner product of row `r` of the first with row `p` of the second. -/
private theorem product_apply (y0 : FVec Ideal S256x512 .bf16) (y1 : FVec Ideal S4096x512 .bf16) (r : Fin 256) (p : Fin 4096) :
    matmul dot_S256x512_S4096x512_S256x4096_1_1_0_0_n_n none y0 y1 (constant (F := Ideal) S256x4096 .f32 0x00000000#32) (ix2 r p)
      = ∑ k : Fin 512, y0 (ix2 r k) * y1 (ix2 p k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r p) ((contrEquiv1 dot_S256x512_S4096x512_S256x4096_1_1_0_0_n_n 512 rfl rfl).symm k) = ix2 r k := funext fun a => Fin.ext (by
    match a with
    | ⟨0, _⟩ => exact lhs_pay6_0 _ _
    | ⟨1, _⟩ => exact (lhs_pay6_1 _ _).trans hk)
  have er : dot_S256x512_S4096x512_S256x4096_1_1_0_0_n_n.rhsIdx (ix2 r p) ((contrEquiv1 dot_S256x512_S4096x512_S256x4096_1_1_0_0_n_n 512 rfl rfl).symm k) = ix2 p k := funext fun a => Fin.ext (by
    match a with
    | ⟨0, _⟩ => exact rhs_pay6_0 _ _
    | ⟨1, _⟩ => exact (rhs_pay6_1 _ _).trans hk)
  rw [el, er]

end Product

theorem pay6_apply (xb : Vec Ideal S256x512 .f32) (wb : Vec Ideal S4096x512 .bf16) (r : Fin 256) (p : Fin 4096) :
    k0_pay6 (F := Ideal) xb wb (ix2 r p) = logitRow (fun k => xb (ix2 r k)) (fun k => wb (ix2 p k)) := by
  unfold k0_pay6 logitRow
  rw [shapeCast_self]
  refine (product_apply _ wb r p).trans ?_
  refine Finset.sum_congr rfl fun k _ => ?_
  rw [truncf_apply, pay5_apply]

theorem pay7_apply (xb : Vec Ideal S256x512 .f32) (wb : Vec Ideal S4096x512 .bf16) (w2b : Vec Ideal S1x4096 .f32)
    (r : Fin 256) (p : Fin 4096) :
    k0_pay7 (F := Ideal) xb wb w2b (ix2 r p)
      = d2Row (fun k => xb (ix2 r k)) (fun k => wb (ix2 p k)) (w2b (ix2 (0 : Fin 1) p)) := by
  unfold k0_pay7 d2Row
  rw [subf_apply, addf_apply, mulf_apply, broadcast_apply, broadcastTo_a1_ab_apply, broadcastTo_1b_ab_apply,
    shapeCast_self, shapeCast_a_a1_apply, laneSum_apply, pay6_apply]
  simp only [mulf_apply, pay5_apply]
  rfl

section Reductions

/-- The fold of `min` from `⊤` over a whole finite type is the infimum. -/
private theorem fold_min_top_eq_inf {ι : Type} [Fintype ι] (f : ι → EReal) :
    (Finset.univ : Finset ι).fold min ⊤ f = Finset.univ.inf f := rfl

/-- The f32 pattern of `+∞` is the extended real `⊤`. -/
private theorem ofBits_inf_f32 : Ideal.ofBits .f32 0x7F800000#32 = (⊤ : EReal) := by
  simp [Ideal.ofBits, Ideal.ieee]

/-- A minimum reduction over one axis from `+∞`: the infimum over that axis's coordinates. -/
private theorem minimumf_single {s t : Shape} {a : Fin s.rank} (src : FVec Ideal s .f32)
    (h : s.Reduces [a] t) (hφ : FKind.Formats .f32) (hacc : (0x7F800000#32 : BitVec 32) = 0x7F800000#32) (j : t.Idx) :
    multiReduction .minimumf [a] t src 0x7F800000#32 h hφ hacc j
      = (Finset.univ : Finset (Fin (s.size a))).inf (src ∘ h.lift j) := by
  refine (multiReduction_minimumf_eq_fold src 0x7F800000#32 h hφ hacc j).trans ?_
  refine (h.fold_filter_drop_single _ _ src j).trans ?_
  show (Finset.univ : Finset (Fin (s.size a))).fold min (Ideal.ofBits .f32 0x7F800000#32) (src ∘ h.lift j) = _
  rw [ofBits_inf_f32]
  exact fold_min_top_eq_inf _

/-- The minimum along the lanes of a two-axis vector, read at a row: the infimum of the row's entries. -/
private theorem laneMin_apply {a b : ℕ} (src : FVec Ideal ⟨2, ![a, b]⟩ .f32)
    (h : Shape.Reduces ⟨2, ![a, b]⟩ [1] ⟨1, ![a]⟩) (hφ : FKind.Formats .f32)
    (hacc : (0x7F800000#32 : BitVec 32) = 0x7F800000#32) (r : Fin a) :
    multiReduction .minimumf [1] ⟨1, ![a]⟩ src 0x7F800000#32 h hφ hacc (ix1 r)
      = (Finset.univ : Finset (Fin b)).inf fun k => src (ix2 r k) := by
  refine (minimumf_single src h hφ hacc (ix1 r)).trans ?_
  refine Finset.inf_congr rfl fun k _ => congrArg src ?_
  funext c
  refine Fin.ext ?_
  rw [Shape.Reduces.lift_val]
  match c with
  | ⟨0, _⟩ => rfl
  | ⟨1, _⟩ => rfl

/-- The minimum along the rows of a two-axis vector, read at a column: the infimum of the column's entries. -/
private theorem colMin_apply {a b : ℕ} (src : FVec Ideal ⟨2, ![a, b]⟩ .f32)
    (h : Shape.Reduces ⟨2, ![a, b]⟩ [0] ⟨1, ![b]⟩) (hφ : FKind.Formats .f32)
    (hacc : (0x7F800000#32 : BitVec 32) = 0x7F800000#32) (c : Fin b) :
    multiReduction .minimumf [0] ⟨1, ![b]⟩ src 0x7F800000#32 h hφ hacc (ix1 c)
      = (Finset.univ : Finset (Fin a)).inf fun r => src (ix2 r c) := by
  refine (minimumf_single src h hφ hacc (ix1 c)).trans ?_
  refine Finset.inf_congr rfl fun r _ => congrArg src ?_
  funext d
  refine Fin.ext ?_
  rw [Shape.Reduces.lift_val]
  match d with
  | ⟨0, _⟩ => rfl
  | ⟨1, _⟩ => rfl

/-- The sum along the rows of a two-axis vector, read at a column: the sum of the column's entries. -/
private theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ r : Fin a, src (ix2 r c) := by
  refine (Ideal.multiReduction_add_single src 0x00000000#32 h hφ hacc (ix1 c)).trans ?_
  refine Finset.sum_congr rfl fun r _ => congrArg src ?_
  funext d
  refine Fin.ext ?_
  rw [Shape.Reduces.lift_val]
  match d with
  | ⟨0, _⟩ => rfl
  | ⟨1, _⟩ => rfl

end Reductions

theorem pay8_apply (xb : Vec Ideal S256x512 .f32) (wb : Vec Ideal S4096x512 .bf16) (w2b : Vec Ideal S1x4096 .f32) :
    k0_pay8 (F := Ideal) xb wb w2b (ix1 (0 : Fin 1))
      = ∑ r : Fin 256, gsq ((Finset.univ : Finset (Fin 4096)).inf fun p => k0_pay7 (F := Ideal) xb wb w2b (ix2 r p)) := by
  unfold k0_pay8
  refine (colSum_apply _ reduces_S256x1_S1 (.inl rfl) rfl (0 : Fin 1)).trans ?_
  refine Finset.sum_congr rfl fun r _ => ?_
  rw [sqrt_apply, maximumf_apply, broadcast_apply, shapeCast_a_a1_apply, laneMin_apply, scalar_ofBits,
    Ideal.ofBits_zero_f32]
  rfl

theorem pay2_apply (v28 : FVec Ideal S256x4096 .f32) (v44 : Vec Ideal S1x1x4096 .f32) (p : Fin 4096) :
    k0_pay2 (F := Ideal) v28 v44 (ix3 (0 : Fin 1) (0 : Fin 1) p)
      = min (v44 (ix3 (0 : Fin 1) (0 : Fin 1) p)) ((Finset.univ : Finset (Fin 256)).inf fun r => v28 (ix2 r p)) := by
  unfold k0_pay2
  refine (shapeCast_ab_1ab_apply _ shapeCasts_S1x4096_S1x1x4096 (0 : Fin 1) (0 : Fin 1) p).trans ?_
  rw [minimumf_apply, shapeCast_1ab_ab_apply, shapeCast_a_1a_apply, colMin_apply]

theorem pay1_apply (v34 : FVec Ideal S1 .f32) (v36 : Vec Ideal S1x1x1 .f32) :
    k0_pay1 (F := Ideal) v34 v36 (ix3 (0 : Fin 1) (0 : Fin 1) (0 : Fin 1))
      = v36 (ix3 (0 : Fin 1) (0 : Fin 1) (0 : Fin 1)) + v34 (ix1 (0 : Fin 1)) := by
  unfold k0_pay1
  refine (shapeCast_ab_1ab_apply _ shapeCasts_S1x1_S1x1x1 (0 : Fin 1) (0 : Fin 1) (0 : Fin 1)).trans ?_
  rw [addf_apply, shapeCast_1ab_ab_apply, shapeCast_a_1a_apply]

theorem pay3_apply (p : Fin 4096) : (k0_pay3 (F := Ideal)) (ix3 (0 : Fin 1) (0 : Fin 1) p) = (⊤ : EReal) := by
  unfold k0_pay3
  refine (shapeCast_ab_1ab_apply _ shapeCasts_S1x4096_S1x1x4096 (0 : Fin 1) (0 : Fin 1) p).trans ?_
  show Ideal.ofBits .f32 0x7F800000#32 = ⊤
  simp [Ideal.ofBits, Ideal.ieee]

theorem pay4_apply : (k0_pay4 (F := Ideal)) (ix3 (0 : Fin 1) (0 : Fin 1) (0 : Fin 1)) = (0 : EReal) := by
  unfold k0_pay4
  refine (shapeCast_ab_1ab_apply _ shapeCasts_S1x1_S1x1x1 (0 : Fin 1) (0 : Fin 1) (0 : Fin 1)).trans ?_
  exact Ideal.ofBits_zero_f32

end Cert.KernelIdeal.Val

end
-- ==== Proof.KBlocks.lean ====
/-
  The blocks the kernel body reads, as entries of the arrays the region finds.
  Tile `t` of the input holds rows `256·t … 256·t + 255`; the weights and their squared norms are
  read whole at every point; and the host lines before the region leave the weights unchanged in
  value and one squared norm per weight row, `∑ₖ W[p,k]²`, in the row vector the kernel adds.
-/
import proofs.«400168_j37958920962068_3_alg».proof.Proof.Gen.KernelIdeal.Frame
import proofs.«400168_j37958920962068_3_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- Where each window's block sits at point `t`: the row windows at tile `t`, the resident windows at
    the origin, the per-core windows at core `t / 64`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val / 64 ∧ win0_5.index t (1 : Fin 3) = 0 ∧ win0_5.index t (2 : Fin 3) = 0
    ∧ win0_6.index t (0 : Fin 3) = t.val / 64 ∧ win0_6.index t (1 : Fin 3) = 0 ∧ win0_6.index t (2 : Fin 3) = 0 :=
  (by decide +kernel : ∀ t : Fin grid0.N, _)

/-- Row `r` of tile `t`, as a row of the whole input. -/
def trow (t : Fin cfg0.N) (r : Fin 256) : Fin 32768 :=
  ⟨256 * t.val + r.val, by have : t.val < 128 := lt_of_lt_of_eq t.isLt (show cfg0.N = 128 from N_0); omega⟩

/-- The input's block at tile `t` reads the input at row `256·t + r`. -/
theorem iblk0_apply (c : Dev nD) (t : Fin cfg0.N) (r : Fin 256) (k : Fin 512) :
    (iblk m c 0 t : Vec F S256x512 .f32) (ix2 r k) = V m c main_arg0 (ix2 (trow t r) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 512 + 1 * k.val = k.val; rw [e1]; omega

/-- The weights' block is the whole (narrowed) weight array at every point. -/
theorem iblk1_apply (c : Dev nD) (t : Fin cfg0.N) (p : Fin 4096) (k : Fin 512) :
    (iblk m c 1 t : Vec F S4096x512 .bf16) (ix2 p k) = V m c main_v0 (ix2 p k) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 4096 + 1 * p.val = p.val; rw [e0]; omega
  | ⟨1, _⟩ => show win0_1.index t (1 : Fin 2) * 512 + 1 * k.val = k.val; rw [e1]; omega

/-- The squared norms' block is the whole row vector at every point. -/
theorem iblk2_apply (c : Dev nD) (t : Fin cfg0.N) (p : Fin 4096) :
    (iblk m c 2 t : Vec F S1x4096 .f32) (ix2 (0 : Fin 1) p) = V m c main_v4 (ix2 (0 : Fin 1) p) := by
  obtain ⟨-, -, -, -, e0, e1, -⟩ := idx_facts t
  unfold iblk
  rw [View.read_apply]
  show V m c main_v4 _ = V m c main_v4 _
  congr 1
  funext a
  apply Fin.ext
  match a with
  | ⟨0, _⟩ => show win0_2.index t (0 : Fin 2) * 1 + 1 * 0 = 0; rw [e0]
  | ⟨1, _⟩ => show win0_2.index t (1 : Fin 2) * 4096 + 1 * p.val = p.val; rw [e1]; omega

/-- The host lines before the region narrow the weights (a change of format only), -/
theorem V_main_v0 (c : Dev nD) :
    (V m c main_v0 : S4096x512.Idx → Elt F .bf16)
      = truncf .bf16 (m ((c : Thread nD τ).loc main_arg1)) bitsLt_bf16_f32 := by
  show StableHlo.after hostOps0 (fun b => m (c, b)) (Proc.devRef .tc main_v0) = _
  after_results

/-- and lay the weight rows' squared norms out as a row vector. -/
theorem V_main_v4 (c : Dev nD) :
    (V m c main_v4 : S1x4096.Idx → Elt F .f32)
      = transpose S1x4096 [1, 0] (broadcastInDim S4096x1 ![0] bcast_S4096_S4096x1_0
          (Host.reduceAdd (mulf (m ((c : Thread nD τ).loc main_arg1)) (m ((c : Thread nD τ).loc main_arg1)))
            (constant (F := F) S_ .f32 0x00000000#32) reducesTo_S4096x512_S4096_d1 h_S_)) transposes_S4096x1_S1x4096_1_0 := by
  show StableHlo.after hostOps0 (fun b => m (c, b)) (Proc.devRef .tc main_v4) = _
  after_results

end Cert.KernelIdeal.Val

end
-- ==== Proof.KChain.lean ====
/-
  What the four output buffers hold after each grid point.
  The normalized block and the logits block are the body's arithmetic of the point's own tile.
  The column-minimum buffer and the row-sum buffer are carried along a core's sixty-four tiles:
  reset at the core's first tile, then folded tile by tile; after tile `j` of core `q` they hold the
  minimum, and the sum, over tiles `0 … j` of that core.
-/
import proofs.«400168_j37958920962068_3_alg».proof.Proof.KPieces
import proofs.«400168_j37958920962068_3_alg».proof.Proof.KPayIdx
import proofs.«400168_j37958920962068_3_alg».proof.Proof.KBlocks

noncomputable section

open Idealize.ShloMosaic Idealize.ShloMosaic.TcCoe Idealize.SL.Sem Idealize.ShloMosaic.ValueIdx

namespace Cert.KernelIdeal.Val

open Cert.KernelIdeal Cert.KernelIdeal.Gen Cert.Spec

section AnyInstance

variable {F : FTy → Type} [FloatOps F]
variable (m : (ℓ : Loc nD τ sig) → Buf (Elt F) ℓ)

/-- After any point the first output buffer holds the normalized tile. -/
theorem out3_eq (c : Dev nD) (t : Fin cfg0.N) :
    (outsAt0 m c t.val t.isLt).1 = k0_pay5 (iblk m c 0 t) := by
  by_cases h0 : t.val % 64 = 0
  · rw [outsAt0_A m c t h0]
    dsimp only
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)
  · rw [outsAt0_B m c t h0]
    dsimp only
    exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After any point the second output buffer holds the tile's logits. -/
theorem out4_eq (c : Dev nD) (t : Fin cfg0.N) :
    (outsAt0 m c t.val t.isLt).2.1 = k0_pay6 (iblk m c 0 t) (iblk m c 1 t) := by
  by_cases h0 : t.val % 64 = 0
  · rw [outsAt0_A m c t h0]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)
  · rw [outsAt0_B m c t h0]
    dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a core's first tile the column-minimum buffer is reset and then folded with the tile. -/
theorem out5_A (c : Dev nD) (t : Fin cfg0.N) (h0 : t.val % 64 = 0) :
    (outsAt0 m c t.val t.isLt).2.2.1
      = k0_pay2 (k0_pay7 (iblk m c 0 t) (iblk m c 1 t) (iblk m c 2 t)) (k0_pay3 (F := F)) := by
  rw [outsAt0_A m c t h0]
  dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)

/-- At a later tile it is folded over what the tile before left. -/
theorem out5_B (c : Dev nD) (t : Fin cfg0.N) (h0 : ¬t.val % 64 = 0) :
    (outsAt0 m c t.val t.isLt).2.2.1
      = k0_pay2 (k0_pay7 (iblk m c 0 t) (iblk m c 1 t) (iblk m c 2 t))
          (outsAt0 m c (t.val - 1) (Nat.lt_of_le_of_lt (Nat.sub_le _ _) t.isLt)).2.2.1 := by
  rw [outsAt0_B m c t h0]
  dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a core's first tile the row-sum buffer is reset and then increased by the tile's sum. -/
theorem out6_A (c : Dev nD) (t : Fin cfg0.N) (h0 : t.val % 64 = 0) :
    (outsAt0 m c t.val t.isLt).2.2.2
      = k0_pay1 (k0_pay8 (iblk m c 0 t) (iblk m c 1 t) (iblk m c 2 t)) (k0_pay4 (F := F)) := by
  rw [outsAt0_A m c t h0]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)

/-- At a later tile it is increased over what the tile before left. -/
theorem out6_B (c : Dev nD) (t : Fin cfg0.N) (h0 : ¬t.val % 64 = 0) :
    (outsAt0 m c t.val t.isLt).2.2.2
      = k0_pay1 (k0_pay8 (iblk m c 0 t) (iblk m c 1 t) (iblk m c 2 t))
          (outsAt0 m c (t.val - 1) (Nat.lt_of_le_of_lt (Nat.sub_le _ _) t.isLt)).2.2.2 := by
  rw [outsAt0_B m c t h0]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The contents after a point do not depend on how the point's number is written. -/
theorem outsAt0_congr (c : Dev nD) {n n' : ℕ} (e : n = n') (h : n < cfg0.N) (h' : n' < cfg0.N) :
    outsAt0 m c n h = outsAt0 m c n' h' := by
  subst e; rfl

end AnyInstance

section AtTheReals

variable (m : (ℓ : Loc nD τ sig) → Buf (Elt Ideal) ℓ)

/-- The squared distance the body forms at tile `t`, row `r` of the tile, weight row `p`. -/
def kd2 (c : Dev nD) (t : Fin cfg0.N) (r : Fin 256) (p : Fin 4096) : EReal :=
  k0_pay7 (F := Ideal) (iblk m c 0 t) (iblk m c 1 t) (iblk m c 2 t) (ix2 r p)

/-- A tile's column minimum of the squared distances. -/
def tileColMin (c : Dev nD) (t : Fin cfg0.N) (p : Fin 4096) : EReal :=
  (Finset.univ : Finset (Fin 256)).inf fun r => kd2 m c t r p

/-- A tile's sum of the clamped roots of its rows' minimal squared distances. -/
def tileRowSum (c : Dev nD) (t : Fin cfg0.N) : EReal :=
  ∑ r : Fin 256, gsq ((Finset.univ : Finset (Fin 4096)).inf fun p => kd2 m c t r p)

/-- Tile `s` of core `q`, as a grid point. -/
def pt (q : Fin 2) (s : Fin 64) : Fin cfg0.N :=
  ⟨64 * q.val + s.val, by rw [show cfg0.N = 128 from N_0]; omega⟩

theorem upto_zero : (Finset.univ.filter fun s : Fin 64 => s.val ≤ 0) = {(0 : Fin 64)} := by
  ext s; simp only [Finset.mem_filter, Finset.mem_univ, true_and, Finset.mem_singleton, Fin.ext_iff]; exact Nat.le_zero

theorem upto_succ (j : ℕ) (hj : j + 1 < 64) :
    (Finset.univ.filter fun s : Fin 64 => s.val ≤ j + 1)
      = insert (⟨j + 1, hj⟩ : Fin 64) (Finset.univ.filter fun s : Fin 64 => s.val ≤ j) := by
  ext s
  simp only [Finset.mem_filter, Finset.mem_univ, true_and, Finset.mem_insert, Fin.ext_iff]
  omega

theorem upto_last : (Finset.univ.filter fun s : Fin 64 => s.val ≤ 63) = Finset.univ := by
  ext s; simp only [Finset.mem_filter, Finset.mem_univ, true_and, iff_true]; omega

theorem not_mem_upto (j : ℕ) (hj : j + 1 < 64) :
    (⟨j + 1, hj⟩ : Fin 64) ∉ Finset.univ.filter fun s : Fin 64 => s.val ≤ j := by
  simp only [Finset.mem_filter, Finset.mem_univ, true_and]; omega

/-- After tile `j` of core `q` the column-minimum buffer holds the minimum over tiles `0 … j` of the core. -/
theorem acc5_eq (c : Dev nD) (q : Fin 2) : ∀ (j : ℕ) (hj : j < 64) (h : 64 * q.val + j < cfg0.N) (p : Fin 4096),
    (outsAt0 m c (64 * q.val + j) h).2.2.1 (ix3 (0 : Fin 1) (0 : Fin 1) p)
      = (Finset.univ.filter fun s : Fin 64 => s.val ≤ j).inf fun s => tileColMin m c (pt q s) p
  | 0, hj, h, p => by
    have h0 : (⟨64 * q.val + 0, h⟩ : Fin cfg0.N).val % 64 = 0 := by dsimp only; omega
    have e := out5_A m c ⟨64 * q.val + 0, h⟩ h0
    dsimp only at e
    rw [e, pay2_apply, pay3_apply, upto_zero, Finset.inf_singleton, min_top_left]
    rfl
  | j + 1, hj, h, p => by
    have hB : ¬(⟨64 * q.val + (j + 1), h⟩ : Fin cfg0.N).val % 64 = 0 := by dsimp only; omega
    have e := out5_B m c ⟨64 * q.val + (j + 1), h⟩ hB
    dsimp only at e
    rw [e, pay2_apply,
      outsAt0_congr m c (show 64 * q.val + (j + 1) - 1 = 64 * q.val + j by omega) _ (Nat.lt_of_succ_lt h),
      acc5_eq c q j (Nat.lt_of_succ_lt hj) (Nat.lt_of_succ_lt h) p, upto_succ j hj, Finset.inf_insert]
    exact min_comm _ _

/-- After tile `j` of core `q` the row-sum buffer holds the sum over tiles `0 … j` of the core. -/
theorem acc6_eq (c : Dev nD) (q : Fin 2) : ∀ (j : ℕ) (hj : j < 64) (h : 64 * q.val + j < cfg0.N),
    (outsAt0 m c (64 * q.val + j) h).2.2.2 (ix3 (0 : Fin 1) (0 : Fin 1) (0 : Fin 1))
      = ∑ s ∈ Finset.univ.filter (fun s : Fin 64 => s.val ≤ j), tileRowSum m c (pt q s)
  | 0, hj, h => by
    have h0 : (⟨64 * q.val + 0, h⟩ : Fin cfg0.N).val % 64 = 0 := by dsimp only; omega
    have e := out6_A m c ⟨64 * q.val + 0, h⟩ h0
    dsimp only at e
    rw [e, pay1_apply, pay4_apply, pay8_apply, upto_zero, Finset.sum_singleton, zero_add]
    rfl
  | j + 1, hj, h => by
    have hB : ¬(⟨64 * q.val + (j + 1), h⟩ : Fin cfg0.N).val % 64 = 0 := by dsimp only; omega
    have e := out6_B m c ⟨64 * q.val + (j + 1), h⟩ hB
    dsimp only at e
    rw [e, pay1_apply, pay8_apply,
      outsAt0_congr m c (show 64 * q.val + (j + 1) - 1 = 64 * q.val + j by omega) _ (Nat.lt_of_succ_lt h),
      acc6_eq c q j (Nat.lt_of_succ_lt hj) (Nat.lt_of_succ_lt h), upto_succ j hj,
      Finset.sum_insert (not_mem_upto j hj), add_comm]
    rfl

end AtTheReals

end Cert.KernelIdeal.Val

end
-- ==== Proof.KFinal.lean ====
/-
  The four arrays the kernel leaves, each as one function of the arrays the region finds.
  Every tile writes back its own block of the normalized array and of the logits; the per-core
  column minima and row sums are written back once per core, after the core's last tile, and hold
  the minimum, and the sum, over all sixty-four tiles of the core.
-/
import proofs.«400168_j37958920962068_3_alg».proof.Proof.KChain

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec

/-! ## The four arrays as functions of an index -/

/-- The normalized array over an input array `X`. -/
def G3 (X : S32768x512.Idx → EReal) : S32768x512.Idx → EReal :=
  fun i => xnRow (fun k' => X (ix2 (i 0 : Fin 32768) k')) (i 1 : Fin 512)

/-- The logits over an input array `X` and a weight array `W`. -/
def G4 (X : S32768x512.Idx → EReal) (W : S4096x512.Idx → EReal) : S32768x4096.Idx → EReal :=
  fun i => logitRow (fun k => X (ix2 (i 0 : Fin 32768) k)) (fun k => W (ix2 (i 1 : Fin 4096) k))

/-- The per-core column minima. -/
def G5 (col : Fin 2 → Fin 4096 → EReal) : S2x1x4096.Idx → EReal := fun i => col (i 0 : Fin 2) (i 2 : Fin 4096)

/-- The per-core row sums. -/
def G6 (rs : Fin 2 → EReal) : S2x1x1.Idx → EReal := fun i => rs (i 0 : Fin 2)

/-! ## One entry of a block, over plain variables -/

theorem blk3_entry (xb : Vec Ideal S256x512 .f32) (X : S32768x512.Idx → EReal) (y : S256x512.Idx) (i : S32768x512.Idx)
    (r : Fin 256) (k : Fin 512) (n : Fin 32768) (hy : y = ix2 r k)
    (hx : ∀ k', xb (ix2 r k') = X (ix2 n k')) (hi : i = ix2 n k) :
    k0_pay5 (F := Ideal) xb y = G3 X i := by
  subst hi hy
  rw [pay5_apply]
  show xnRow _ _ = xnRow _ _
  congr 1
  funext k'
  exact hx k'

theorem blk4_entry (xb : Vec Ideal S256x512 .f32) (wb : Vec Ideal S4096x512 .bf16) (X : S32768x512.Idx → EReal)
    (W : S4096x512.Idx → EReal) (y : S256x4096.Idx) (i : S32768x4096.Idx) (r : Fin 256) (p : Fin 4096) (n : Fin 32768)
    (hy : y = ix2 r p) (hx : ∀ k', xb (ix2 r k') = X (ix2 n k')) (hw : ∀ k', wb (ix2 p k') = W (ix2 p k'))
    (hi : i = ix2 n p) :
    k0_pay6 (F := Ideal) xb wb y = G4 X W i := by
  subst hi hy
  rw [pay6_apply]
  show logitRow _ _ = logitRow _ _
  congr 1
  · funext k'; exact hx k'
  · funext k'; exact hw k'

theorem blk5_entry (v : Vec Ideal S1x1x4096 .f32) (col : Fin 2 → Fin 4096 → EReal) (y : S1x1x4096.Idx) (i : S2x1x4096.Idx)
    (q : Fin 2) (p : Fin 4096) (hy : y = ix3 (0 : Fin 1) (0 : Fin 1) p)
    (hv : v (ix3 (0 : Fin 1) (0 : Fin 1) p) = col q p) (hi : i = ix3 q (0 : Fin 1) p) : v y = G5 col i := by
  subst hi hy
  rw [hv]
  rfl

theorem blk6_entry (v : Vec Ideal S1x1x1 .f32) (rs : Fin 2 → EReal) (y : S1x1x1.Idx) (i : S2x1x1.Idx)
    (q : Fin 2) (hy : y = ix3 (0 : Fin 1) (0 : Fin 1) (0 : Fin 1))
    (hv : v (ix3 (0 : Fin 1) (0 : Fin 1) (0 : Fin 1)) = rs q)
    (hi : i = ix3 q (0 : Fin 1) (0 : Fin 1)) : v y = G6 rs i := by
  subst hi hy
  rw [hv]
  rfl

/-! ## What the write-backs leave in the arrays -/

section Arrays

variable (m : (ℓ : Loc nD τ sig) → Buf (Elt Ideal) ℓ)

/-- A core's column minimum of the squared distances, over all its tiles. -/
def colMin (c : Dev nD) (q : Fin 2) (p : Fin 4096) : EReal :=
  (Finset.univ : Finset (Fin 64)).inf fun s => tileColMin m c (pt q s) p

/-- A core's sum of the clamped roots of the rows' minimal squared distances, over all its tiles. -/
def rowSum (c : Dev nD) (q : Fin 2) : EReal := ∑ s : Fin 64, tileRowSum m c (pt q s)

/-- Tile `t` writes back block `t` of the normalized array. -/
theorem flushed3_eq (c : Dev nD) (t : Fin cfg0.N) :
    (dats m 0 c).flushed 3 t = ((cfg0.win 3).blk t).view.read (Elt Ideal) (G3 (V m c main_arg0)) := by
  obtain ⟨a00, a01, a10, a11, a20, a21, a30, a31, a40, a41, a50, a51, a52, a60, a61, a62⟩ := idx_facts t
  show (cfg0.win 3).cut (grid0.coords t) ((dats m 0 c).after 3 t) = _
  rw [after0_3, out3_eq]
  funext j
  have hj0 : (j 0).val < 256 := (j 0).isLt
  have hj1 : (j 1).val < 512 := (j 1).isLt
  show k0_pay5 (F := Ideal) (iblk m c 0 t) j = G3 (V m c main_arg0) (((cfg0.win 3).blk t).view.emb j)
  refine blk3_entry (iblk m c 0 t) (V m c main_arg0) j _ ⟨(j 0).val, hj0⟩ ⟨(j 1).val, hj1⟩ (trow t ⟨(j 0).val, hj0⟩) ?_
    (fun k' => iblk0_apply m c t ⟨(j 0).val, hj0⟩ k') ?_
  · funext a; apply Fin.ext
    match a with
    | ⟨0, _⟩ => rfl
    | ⟨1, _⟩ => rfl
  · funext a; apply Fin.ext
    match a with
    | ⟨0, _⟩ => show win0_3.index t (0 : Fin 2) * 256 + 1 * (j 0).val = 256 * t.val + (j 0).val; rw [a30]; omega
    | ⟨1, _⟩ => show win0_3.index t (1 : Fin 2) * 512 + 1 * (j 1).val = (j 1).val; rw [a31]; omega

/-- Tile `t` writes back block `t` of the logits. -/
theorem flushed4_eq (c : Dev nD) (t : Fin cfg0.N) :
    (dats m 0 c).flushed 4 t = ((cfg0.win 4).blk t).view.read (Elt Ideal) (G4 (V m c main_arg0) (V m c main_v0)) := by
  obtain ⟨a00, a01, a10, a11, a20, a21, a30, a31, a40, a41, a50, a51, a52, a60, a61, a62⟩ := idx_facts t
  show (cfg0.win 4).cut (grid0.coords t) ((dats m 0 c).after 4 t) = _
  rw [after0_4, out4_eq]
  funext j
  have hj0 : (j 0).val < 256 := (j 0).isLt
  have hj1 : (j 1).val < 4096 := (j 1).isLt
  show k0_pay6 (F := Ideal) (iblk m c 0 t) (iblk m c 1 t) j
    = G4 (V m c main_arg0) (V m c main_v0) (((cfg0.win 4).blk t).view.emb j)
  refine blk4_entry (iblk m c 0 t) (iblk m c 1 t) (V m c main_arg0) (V m c main_v0) j _ ⟨(j 0).val, hj0⟩ ⟨(j 1).val, hj1⟩
    (trow t ⟨(j 0).val, hj0⟩) ?_ (fun k' => iblk0_apply m c t ⟨(j 0).val, hj0⟩ k')
    (fun k' => iblk1_apply m c t ⟨(j 1).val, hj1⟩ k') ?_
  · funext a; apply Fin.ext
    match a with
    | ⟨0, _⟩ => rfl
    | ⟨1, _⟩ => rfl
  · funext a; apply Fin.ext
    match a with
    | ⟨0, _⟩ => show win0_4.index t (0 : Fin 2) * 256 + 1 * (j 0).val = 256 * t.val + (j 0).val; rw [a40]; omega
    | ⟨1, _⟩ => show win0_4.index t (1 : Fin 2) * 4096 + 1 * (j 1).val = (j 1).val; rw [a41]; omega

/-- A core's last tile writes back the core's column minima. -/
theorem flushed5_eq (c : Dev nD) (t : Fin cfg0.N) (hf : (cfg0.win 5).flush t = true) :
    (dats m 0 c).flushed 5 t = ((cfg0.win 5).blk t).view.read (Elt Ideal) (G5 (colMin m c)) := by
  have h63 : t.val % 64 = 63 := (flush0_5 t).mp hf
  have hN : t.val < 128 := lt_of_lt_of_eq t.isLt (show cfg0.N = 128 from N_0)
  obtain ⟨a00, a01, a10, a11, a20, a21, a30, a31, a40, a41, a50, a51, a52, a60, a61, a62⟩ := idx_facts t
  show (cfg0.win 5).cut (grid0.coords t) ((dats m 0 c).after 5 t) = _
  rw [after0_5]
  funext j
  have hj0 : (j 0).val < 1 := (j 0).isLt
  have hj1 : (j 1).val < 1 := (j 1).isLt
  have hj2 : (j 2).val < 4096 := (j 2).isLt
  show (outsAt0 m c t.val t.isLt).2.2.1 j = G5 (colMin m c) (((cfg0.win 5).blk t).view.emb j)
  have hq : t.val / 64 < 2 := by omega
  refine blk5_entry _ (colMin m c) j _ ⟨t.val / 64, hq⟩ ⟨(j 2).val, hj2⟩ ?_ ?_ ?_
  · funext a; apply Fin.ext
    match a with
    | ⟨0, _⟩ => show (j 0).val = 0; omega
    | ⟨1, _⟩ => show (j 1).val = 0; omega
    | ⟨2, _⟩ => rfl
  · have e : t.val = 64 * (⟨t.val / 64, hq⟩ : Fin 2).val + 63 := by show t.val = 64 * (t.val / 64) + 63; omega
    rw [outsAt0_congr m c e t.isLt (lt_of_lt_of_eq (show 64 * (t.val / 64) + 63 < 128 by omega) (show cfg0.N = 128 from N_0).symm),
      acc5_eq m c ⟨t.val / 64, hq⟩ 63 (by omega) _ ⟨(j 2).val, hj2⟩, upto_last]
    rfl
  · funext a; apply Fin.ext
    match a with
    | ⟨0, _⟩ => show win0_5.index t (0 : Fin 3) * 1 + 1 * (j 0).val = t.val / 64; rw [a50]; omega
    | ⟨1, _⟩ => show win0_5.index t (1 : Fin 3) * 1 + 1 * (j 1).val = 0; rw [a51]; omega
    | ⟨2, _⟩ => show win0_5.index t (2 : Fin 3) * 4096 + 1 * (j 2).val = (j 2).val; rw [a52]; omega

/-- A core's last tile writes back the core's row sum. -/
theorem flushed6_eq (c : Dev nD) (t : Fin cfg0.N) (hf : (cfg0.win 6).flush t = true) :
    (dats m 0 c).flushed 6 t = ((cfg0.win 6).blk t).view.read (Elt Ideal) (G6 (rowSum m c)) := by
  have h63 : t.val % 64 = 63 := (flush0_6 t).mp hf
  have hN : t.val < 128 := lt_of_lt_of_eq t.isLt (show cfg0.N = 128 from N_0)
  obtain ⟨a00, a01, a10, a11, a20, a21, a30, a31, a40, a41, a50, a51, a52, a60, a61, a62⟩ := idx_facts t
  show (cfg0.win 6).cut (grid0.coords t) ((dats m 0 c).after 6 t) = _
  rw [after0_6]
  funext j
  have hj0 : (j 0).val < 1 := (j 0).isLt
  have hj1 : (j 1).val < 1 := (j 1).isLt
  have hj2 : (j 2).val < 1 := (j 2).isLt
  show (outsAt0 m c t.val t.isLt).2.2.2 j = G6 (rowSum m c) (((cfg0.win 6).blk t).view.emb j)
  have hq : t.val / 64 < 2 := by omega
  refine blk6_entry _ (rowSum m c) j _ ⟨t.val / 64, hq⟩ ?_ ?_ ?_
  · funext a; apply Fin.ext
    match a with
    | ⟨0, _⟩ => show (j 0).val = 0; omega
    | ⟨1, _⟩ => show (j 1).val = 0; omega
    | ⟨2, _⟩ => show (j 2).val = 0; omega
  · have e : t.val = 64 * (⟨t.val / 64, hq⟩ : Fin 2).val + 63 := by show t.val = 64 * (t.val / 64) + 63; omega
    rw [outsAt0_congr m c e t.isLt (lt_of_lt_of_eq (show 64 * (t.val / 64) + 63 < 128 by omega) (show cfg0.N = 128 from N_0).symm),
      acc6_eq m c ⟨t.val / 64, hq⟩ 63 (by omega) _, upto_last]
    rfl
  · funext a; apply Fin.ext
    match a with
    | ⟨0, _⟩ => show win0_6.index t (0 : Fin 3) * 1 + 1 * (j 0).val = t.val / 64; rw [a60]; omega
    | ⟨1, _⟩ => show win0_6.index t (1 : Fin 3) * 1 + 1 * (j 1).val = 0; rw [a61]; omega
    | ⟨2, _⟩ => show win0_6.index t (2 : Fin 3) * 1 + 1 * (j 2).val = 0; rw [a62]; omega

end Arrays

/-! ## The arrays after the run -/

section Finals

variable (m : (ℓ : Loc nD τ sig) → Buf (Elt Ideal) ℓ)

theorem mem_blk3 (t : Fin cfg0.N) (i : S32768x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v5_0).slice (win0_3.rect t)).set ↔ _
  rw [View.set_slice_whole, Rect.mem_set_unit]
  exact Iff.rfl

theorem mem_blk4 (t : Fin cfg0.N) (i : S32768x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v5_1).slice (win0_4.rect t)).set ↔ _
  rw [View.set_slice_whole, Rect.mem_set_unit]
  exact Iff.rfl

theorem mem_blk5 (t : Fin cfg0.N) (i : S2x1x4096.Idx) :
    i ∈ ((cfg0.win 5).blk t).view.set ↔ ∀ a : Fin 3, win0_5.index t a * S1x1x4096.size a ≤ (i a).val
      ∧ (i a).val < win0_5.index t a * S1x1x4096.size a + S1x1x4096.size a := by
  show i ∈ ((View.whole main_v5_2).slice (win0_5.rect t)).set ↔ _
  rw [View.set_slice_whole, Rect.mem_set_unit]
  exact Iff.rfl

theorem mem_blk6 (t : Fin cfg0.N) (i : S2x1x1.Idx) :
    i ∈ ((cfg0.win 6).blk t).view.set ↔ ∀ a : Fin 3, win0_6.index t a * S1x1x1.size a ≤ (i a).val
      ∧ (i a).val < win0_6.index t a * S1x1x1.size a + S1x1x1.size a := by
  show i ∈ ((View.whole main_v5_3).slice (win0_6.rect t)).set ↔ _
  rw [View.set_slice_whole, Rect.mem_set_unit]
  exact Iff.rfl

/-- The first result array is the normalized array. -/
theorem final3 (c : Dev nD) : (dats m 0 c).arrAt 3 cfg0.N = G3 (V m c main_arg0) :=
  (dats m 0 c).arrAt_eq_of_cover 3 (G3 (V m c main_arg0)) (fun t _ => flushed3_eq m c t) fun i => by
    have hi0 : (i 0).val < 32768 := (i 0).isLt
    have hi1 : (i 1).val < 512 := (i 1).isLt
    obtain ⟨t, ht⟩ : ∃ t : Fin cfg0.N, t.val = (i 0).val / 256 :=
      ⟨⟨(i 0).val / 256, by rw [show cfg0.N = 128 from N_0]; omega⟩, rfl⟩
    obtain ⟨a00, a01, a10, a11, a20, a21, a30, a31, a40, a41, a50, a51, a52, a60, a61, a62⟩ := idx_facts t
    refine ⟨t, flush0_3 t, ?_⟩
    rw [mem_blk3]
    intro a
    match a with
    | ⟨0, _⟩ =>
      show win0_3.index t (0 : Fin 2) * 256 ≤ (i 0).val ∧ (i 0).val < win0_3.index t (0 : Fin 2) * 256 + 256
      rw [a30, ht]; omega
    | ⟨1, _⟩ =>
      show win0_3.index t (1 : Fin 2) * 512 ≤ (i 1).val ∧ (i 1).val < win0_3.index t (1 : Fin 2) * 512 + 512
      rw [a31]; omega

/-- The second result array is the logits. -/
theorem final4 (c : Dev nD) : (dats m 0 c).arrAt 4 cfg0.N = G4 (V m c main_arg0) (V m c main_v0) :=
  (dats m 0 c).arrAt_eq_of_cover 4 (G4 (V m c main_arg0) (V m c main_v0)) (fun t _ => flushed4_eq m c t) fun i => by
    have hi0 : (i 0).val < 32768 := (i 0).isLt
    have hi1 : (i 1).val < 4096 := (i 1).isLt
    obtain ⟨t, ht⟩ : ∃ t : Fin cfg0.N, t.val = (i 0).val / 256 :=
      ⟨⟨(i 0).val / 256, by rw [show cfg0.N = 128 from N_0]; omega⟩, rfl⟩
    obtain ⟨a00, a01, a10, a11, a20, a21, a30, a31, a40, a41, a50, a51, a52, a60, a61, a62⟩ := idx_facts t
    refine ⟨t, flush0_4 t, ?_⟩
    rw [mem_blk4]
    intro a
    match a with
    | ⟨0, _⟩ =>
      show win0_4.index t (0 : Fin 2) * 256 ≤ (i 0).val ∧ (i 0).val < win0_4.index t (0 : Fin 2) * 256 + 256
      rw [a40, ht]; omega
    | ⟨1, _⟩ =>
      show win0_4.index t (1 : Fin 2) * 4096 ≤ (i 1).val ∧ (i 1).val < win0_4.index t (1 : Fin 2) * 4096 + 4096
      rw [a41]; omega

/-- The per-core column minima, as the array the host lines after the region read. -/
theorem final5 (c : Dev nD) : (dats m 0 c).arrAt 5 cfg0.N = G5 (colMin m c) :=
  (dats m 0 c).arrAt_eq_of_cover 5 (G5 (colMin m c)) (fun t hf => flushed5_eq m c t hf) fun i => by
    have hi0 : (i 0).val < 2 := (i 0).isLt
    have hi1 : (i 1).val < 1 := (i 1).isLt
    have hi2 : (i 2).val < 4096 := (i 2).isLt
    obtain ⟨t, ht⟩ : ∃ t : Fin cfg0.N, t.val = 64 * (i 0).val + 63 :=
      ⟨⟨64 * (i 0).val + 63, by rw [show cfg0.N = 128 from N_0]; omega⟩, rfl⟩
    obtain ⟨a00, a01, a10, a11, a20, a21, a30, a31, a40, a41, a50, a51, a52, a60, a61, a62⟩ := idx_facts t
    refine ⟨t, (flush0_5 t).mpr (by rw [ht]; omega), ?_⟩
    rw [mem_blk5]
    intro a
    match a with
    | ⟨0, _⟩ =>
      show win0_5.index t (0 : Fin 3) * 1 ≤ (i 0).val ∧ (i 0).val < win0_5.index t (0 : Fin 3) * 1 + 1
      rw [a50, ht]; omega
    | ⟨1, _⟩ =>
      show win0_5.index t (1 : Fin 3) * 1 ≤ (i 1).val ∧ (i 1).val < win0_5.index t (1 : Fin 3) * 1 + 1
      rw [a51]; omega
    | ⟨2, _⟩ =>
      show win0_5.index t (2 : Fin 3) * 4096 ≤ (i 2).val ∧ (i 2).val < win0_5.index t (2 : Fin 3) * 4096 + 4096
      rw [a52]; omega

/-- The per-core row sums, as the array the host lines after the region read. -/
theorem final6 (c : Dev nD) : (dats m 0 c).arrAt 6 cfg0.N = G6 (rowSum m c) :=
  (dats m 0 c).arrAt_eq_of_cover 6 (G6 (rowSum m c)) (fun t hf => flushed6_eq m c t hf) fun i => by
    have hi0 : (i 0).val < 2 := (i 0).isLt
    have hi1 : (i 1).val < 1 := (i 1).isLt
    have hi2 : (i 2).val < 1 := (i 2).isLt
    obtain ⟨t, ht⟩ : ∃ t : Fin cfg0.N, t.val = 64 * (i 0).val + 63 :=
      ⟨⟨64 * (i 0).val + 63, by rw [show cfg0.N = 128 from N_0]; omega⟩, rfl⟩
    obtain ⟨a00, a01, a10, a11, a20, a21, a30, a31, a40, a41, a50, a51, a52, a60, a61, a62⟩ := idx_facts t
    refine ⟨t, (flush0_6 t).mpr (by rw [ht]; omega), ?_⟩
    rw [mem_blk6]
    intro a
    match a with
    | ⟨0, _⟩ =>
      show win0_6.index t (0 : Fin 3) * 1 ≤ (i 0).val ∧ (i 0).val < win0_6.index t (0 : Fin 3) * 1 + 1
      rw [a60, ht]; omega
    | ⟨1, _⟩ =>
      show win0_6.index t (1 : Fin 3) * 1 ≤ (i 1).val ∧ (i 1).val < win0_6.index t (1 : Fin 3) * 1 + 1
      rw [a61]; omega
    | ⟨2, _⟩ =>
      show win0_6.index t (2 : Fin 3) * 1 ≤ (i 2).val ∧ (i 2).val < win0_6.index t (2 : Fin 3) * 1 + 1
      rw [a62]; omega

end Finals

end Cert.KernelIdeal.Val

end
-- ==== Proof.MinSum.lean ====
/-
  Order and sum facts over the extended reals that join the two programs.
  The clamped root `gsq v = √(max v 0)` is monotone and keeps the top element, so it commutes with
  finite infima; a fold of `min` from the top element is an infimum; and the rows of the input,
  grouped as two cores of sixty-four tiles of 256 rows, are all the rows, once each, so an infimum
  or a sum over all rows is the iterated one over cores, tiles and rows of a tile.
-/
import proofs.«400168_j37958920962068_3_alg».proof.Proof.Spec
import Mathlib.Order.Monotone.Basic
import Mathlib.Data.Finset.Lattice.Fold
import Mathlib.Algebra.BigOperators.Fin
import Mathlib.Data.EReal.Basic
import Mathlib.Analysis.Real.Sqrt
import Mathlib.Data.Fintype.BigOperators

noncomputable section

namespace Cert.Spec

open Idealize.ShloMosaic

/-- The root is monotone on the whole extended line: the bottom element and the negative reals go to
    the bottom element, the top element to itself, and on the reals from zero up it is the real
    root, which is monotone. -/
private theorem sqrt_mono : Monotone Ideal.sqrt := by
  intro a b hab
  induction a using EReal.rec with
  | bot => rw [Ideal.sqrt_bot]; exact bot_le
  | top =>
    have hb : b = ⊤ := top_le_iff.mp hab
    rw [hb]
  | coe x =>
    induction b using EReal.rec with
    | bot => exact absurd hab (not_le.mpr (EReal.bot_lt_coe x))
    | top => rw [Ideal.sqrt_top]; exact le_top
    | coe y =>
      have hxy : x ≤ y := EReal.coe_le_coe_iff.mp hab
      rw [Ideal.sqrt_coe, Ideal.sqrt_coe]
      by_cases hx : x < 0
      · rw [if_pos hx]; exact bot_le
      · have hy : ¬ y < 0 := fun h => hx (lt_of_le_of_lt hxy h)
        rw [if_neg hx, if_neg hy]
        exact EReal.coe_le_coe_iff.mpr (Real.sqrt_le_sqrt hxy)

theorem gsq_mono : Monotone gsq := by
  intro a b hab
  exact sqrt_mono (max_le_max hab le_rfl)

theorem gsq_top : gsq ⊤ = ⊤ := by
  unfold gsq
  rw [max_eq_left le_top, Ideal.sqrt_top]

/-- A fold of `min` from the top element is the infimum. -/
theorem fold_min_eq_inf {ι : Type*} (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- The clamped root commutes with a finite infimum. -/
theorem gsq_inf {ι : Type*} (s : Finset ι) (f : ι → EReal) : gsq (s.inf f) = s.inf fun i => gsq (f i) := by
  classical
  induction s using Finset.induction_on with
  | empty => rw [Finset.inf_empty, Finset.inf_empty, gsq_top]
  | insert a s ha ih =>
    rw [Finset.inf_insert, Finset.inf_insert, gsq_mono.map_min, ih]

/-- Tile `s` of core `c`. -/
def tileIdx (c : Fin 2) (s : Fin 64) : Fin 128 := ⟨64 * c.val + s.val, by omega⟩
/-- Row `r` of tile `t`. -/
def rowIdx (t : Fin 128) (r : Fin 256) : Fin 32768 := ⟨256 * t.val + r.val, by omega⟩

/-- Every row is row `n % 256` of tile `n / 256 % 64` of core `n / 16384`. -/
private theorem rowIdx_split (n : Fin 32768) :
    rowIdx (tileIdx ⟨n.val / 16384, by omega⟩ ⟨n.val / 256 % 64, by omega⟩) ⟨n.val % 256, by omega⟩ = n := by
  apply Fin.ext
  show 256 * (64 * (n.val / 16384) + n.val / 256 % 64) + n.val % 256 = n.val
  omega

/-- The rows, as triples of a core, a tile of the core and a row of the tile. -/
private def rowEquiv : (Fin 2 × Fin 64 × Fin 256) ≃ Fin 32768 where
  toFun p := rowIdx (tileIdx p.1 p.2.1) p.2.2
  invFun n := (⟨n.val / 16384, by omega⟩, ⟨n.val / 256 % 64, by omega⟩, ⟨n.val % 256, by omega⟩)
  left_inv := by
    rintro ⟨c, s, r⟩
    have hc := c.isLt
    have hs := s.isLt
    have hr := r.isLt
    refine Prod.ext (Fin.ext ?_) (Prod.ext (Fin.ext ?_) (Fin.ext ?_))
    · show (256 * (64 * c.val + s.val) + r.val) / 16384 = c.val
      omega
    · show (256 * (64 * c.val + s.val) + r.val) / 256 % 64 = s.val
      omega
    · show (256 * (64 * c.val + s.val) + r.val) % 256 = r.val
      omega
  right_inv := rowIdx_split

theorem inf_rows (f : Fin 32768 → EReal) :
    (Finset.univ : Finset (Fin 32768)).inf f
      = (Finset.univ : Finset (Fin 2)).inf fun c => (Finset.univ : Finset (Fin 64)).inf fun s =>
          (Finset.univ : Finset (Fin 256)).inf fun r => f (rowIdx (tileIdx c s) r) := by
  apply le_antisymm
  · exact Finset.le_inf fun c _ => Finset.le_inf fun s _ => Finset.le_inf fun r _ =>
      Finset.inf_le (Finset.mem_univ _)
  · refine Finset.le_inf fun n _ => ?_
    refine (Finset.inf_le (Finset.mem_univ (⟨n.val / 16384, by omega⟩ : Fin 2))).trans ?_
    refine (Finset.inf_le (Finset.mem_univ (⟨n.val / 256 % 64, by omega⟩ : Fin 64))).trans ?_
    refine (Finset.inf_le (Finset.mem_univ (⟨n.val % 256, by omega⟩ : Fin 256))).trans ?_
    exact le_of_eq (congrArg f (rowIdx_split n))

theorem sum_rows (f : Fin 32768 → EReal) :
    ∑ n : Fin 32768, f n = ∑ c : Fin 2, ∑ s : Fin 64, ∑ r : Fin 256, f (rowIdx (tileIdx c s) r) := by
  rw [← Fintype.sum_equiv rowEquiv (fun p => f (rowIdx (tileIdx p.1 p.2.1) p.2.2)) f (fun _ => rfl),
    Fintype.sum_prod_type]
  refine Finset.sum_congr rfl fun c _ => ?_
  rw [Fintype.sum_prod_type]

/-- An infimum over an initial segment of the naturals, as one over `Fin`. -/
theorem inf_range_fin (n : ℕ) (f : ℕ → EReal) :
    (Finset.range n).inf f = (Finset.univ : Finset (Fin n)).inf fun k => f k.val := by
  apply le_antisymm
  · exact Finset.le_inf fun k _ => Finset.inf_le (Finset.mem_range.mpr k.isLt)
  · exact Finset.le_inf fun i hi =>
      Finset.inf_le (f := fun k : Fin n => f k.val) (Finset.mem_univ ⟨i, Finset.mem_range.mp hi⟩)

/-- The column side: the clamped root of the minimum over cores of the per-core column minima of the
    squared distances is the column minimum of the distances. -/
theorem col_side (D2 : Fin 32768 → EReal) :
    gsq ((Finset.univ : Finset (Fin 2)).inf fun c => (Finset.univ : Finset (Fin 64)).inf fun s =>
          (Finset.univ : Finset (Fin 256)).inf fun r => D2 (rowIdx (tileIdx c s) r))
      = (Finset.univ : Finset (Fin 32768)).inf fun n => gsq (D2 n) :=
  (congrArg gsq (inf_rows D2).symm).trans (gsq_inf Finset.univ D2)

/-- The row side: the per-core, per-tile sums of the clamped roots of the row minima of the squared
    distances add up to the sum over all rows of the row minima of the distances. -/
theorem row_side (D2 : Fin 32768 → Fin 4096 → EReal) :
    ∑ c : Fin 2, ∑ s : Fin 64, ∑ r : Fin 256,
        gsq ((Finset.univ : Finset (Fin 4096)).inf fun p => D2 (rowIdx (tileIdx c s) r) p)
      = ∑ n : Fin 32768, (Finset.univ : Finset (Fin 4096)).inf fun p => gsq (D2 n p) := by
  rw [sum_rows fun n => (Finset.univ : Finset (Fin 4096)).inf fun p => gsq (D2 n p)]
  refine Finset.sum_congr rfl fun c _ => Finset.sum_congr rfl fun s _ =>
    Finset.sum_congr rfl fun r _ => ?_
  exact gsq_inf Finset.univ fun p => D2 (rowIdx (tileIdx c s) r) p

end Cert.Spec

end
-- ==== Proof.KTail.lean ====
/-
  The host lines after the region: the two scalar results from the arrays the region leaves.
  The first scalar result adds three inputs, the middle one halved. The loss takes the per-core row
  sums and the per-core column minima: it adds the row sums and divides by the number of rows,
  takes the minimum over the cores of each column, its clamped root, the mean over the columns,
  and returns half the one mean plus half the other.
-/
import proofs.«400168_j37958920962068_3_alg».proof.Proof.KFinal
import proofs.«400168_j37958920962068_3_alg».proof.Proof.MinSum
import Idealize.ShloMosaic.Lib.ValueIdxRank1
import Idealize.ShloMosaic.Lib.ValueLayout
import Idealize.ShloMosaic.PureOps.Reduce

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec

/-! ## The loss, as the host lines compute it -/

/-- The sum of the per-core row sums. -/
def rsumT (a6 : FVec Ideal S2x1x1 .f32) : FVec Ideal S_ .f32 :=
  Host.reduceAdd (shapeCast S2 a6 shapeCasts_S2x1x1_S2) (constant (F := Ideal) S_ .f32 0x00000000#32)
    reducesTo_S2_S_d0 h_S_

/-- The minimum over the cores of the per-core column minima. -/
def cminT (a5 : FVec Ideal S2x1x4096 .f32) : FVec Ideal S4096 .f32 :=
  Host.reduce FloatOps.minimumf (shapeCast S2x4096 a5 shapeCasts_S2x1x4096_S2x4096)
    (constant (F := Ideal) S_ .f32 0x7F800000#32) reducesTo_S2x4096_S4096_d0 h_S_

/-- The sum over the columns of the clamped roots of the column minima. -/
def csumT (a5 : FVec Ideal S2x1x4096 .f32) : FVec Ideal S_ .f32 :=
  Host.reduceAdd
    (Host.sqrt (maximumf (cminT a5)
      (broadcastInDim S4096 ![] bcast_S_S4096 (constant (F := Ideal) S_ .f32 0x00000000#32))))
    (constant (F := Ideal) S_ .f32 0x00000000#32) reducesTo_S4096_S_d0 h_S_

/-- Half the row mean plus half the column mean. -/
def combine (u v : FVec Ideal S_ .f32) : FVec Ideal S_ .f32 :=
  addf
    (mulf (constant (F := Ideal) S_ .f32 0x3F000000#32) (Host.divf u (constant (F := Ideal) S_ .f32 0x47000000#32)))
    (mulf (constant (F := Ideal) S_ .f32 0x3F000000#32) (Host.divf v (constant (F := Ideal) S_ .f32 0x45800000#32)))

/-- The loss from the per-core column minima `a5` and row sums `a6`. -/
def lossTail (a5 : FVec Ideal S2x1x4096 .f32) (a6 : FVec Ideal S2x1x1 .f32) : FVec Ideal S_ .f32 :=
  combine (rsumT a6) (csumT a5)

theorem combine_apply (u v : FVec Ideal S_ .f32) :
    combine u v ix0 = Ideal.ofBits .f32 0x3F000000#32 * Ideal.div (u ix0) (Ideal.ofBits .f32 0x47000000#32)
      + Ideal.ofBits .f32 0x3F000000#32 * Ideal.div (v ix0) (Ideal.ofBits .f32 0x45800000#32) := rfl

/-- The word of the positive infinity is the top element. -/
theorem inf_word : Ideal.ofBits .f32 0x7F800000#32 = (⊤ : EReal) := by
  simp [Ideal.ofBits, Ideal.ieee]

theorem rsumT_apply (a6 : FVec Ideal S2x1x1 .f32) :
    rsumT a6 ix0 = ∑ q : Fin 2, a6 (ix3 q (0 : Fin 1) (0 : Fin 1)) := by
  unfold rsumT
  have hy : ∀ q : Fin 2, shapeCast S2 a6 shapeCasts_S2x1x1_S2 (ix1 q) = a6 (ix3 q (0 : Fin 1) (0 : Fin 1)) := fun q =>
    shapeCast_apply a6 _ _ _ (by
      rw [Shape.rowMajor_val_three, Shape.rowMajor_val_one]
      show (q.val * 1 + 0) * 1 + 0 = q.val
      omega)
  generalize shapeCast S2 a6 shapeCasts_S2x1x1_S2 = y at hy ⊢
  simp only [Host.reduceAdd, Ideal.hostReduceAdd_def]
  refine (Ideal.hostReduceAdd_total reducesTo_S2_S_d0 (fun b => b.elim0) y _ ix0).trans ?_
  rw [← Equiv.sum_comp (idxEquiv1 (n := 2)).symm y]
  show Ideal.ofBits .f32 0x00000000#32 + ∑ q : Fin 2, y (ix1 q) = _
  rw [Ideal.ofBits_zero_f32, zero_add]
  exact Finset.sum_congr rfl fun q _ => hy q

theorem cminT_apply (a5 : FVec Ideal S2x1x4096 .f32) (p : Fin 4096) :
    cminT a5 (ix1 p) = (Finset.univ : Finset (Fin 2)).inf fun q => a5 (ix3 q (0 : Fin 1) p) := by
  unfold cminT
  have hy : ∀ q : Fin 2, shapeCast S2x4096 a5 shapeCasts_S2x1x4096_S2x4096 (ix2 q p) = a5 (ix3 q (0 : Fin 1) p) := fun q =>
    shapeCast_apply a5 _ _ _ (by
      rw [Shape.rowMajor_val_three, Shape.rowMajor_val_two]
      show (q.val * 1 + 0) * 4096 + p.val = q.val * 4096 + p.val
      omega)
  generalize shapeCast S2x4096 a5 shapeCasts_S2x1x4096_S2x4096 = y at hy ⊢
  have h : S2x4096.Reduces [0] S4096 := by decide
  refine (Host.reduce_eq_fold_single _ _ _ reducesTo_S2x4096_S4096_d0 h h_S_ (ix1 p)).trans ?_
  show (Finset.univ : Finset (Fin 2)).fold min (Ideal.ofBits .f32 0x7F800000#32) (y ∘ h.lift (ix1 p)) = _
  rw [inf_word]
  refine (fold_min_eq_inf (Finset.univ : Finset (Fin 2)) (fun q => y (h.lift (ix1 p) q))).trans ?_
  refine Finset.inf_congr rfl fun q _ => ?_
  refine Eq.trans (congrArg y (funext fun c => Fin.ext ?_)) (hy q)
  show h.liftVal (ix1 p) q.val c = (ix2 q p c).val
  match c with
  | ⟨0, _⟩ => rfl
  | ⟨1, _⟩ => rfl

theorem csumT_apply (a5 : FVec Ideal S2x1x4096 .f32) :
    csumT a5 ix0 = ∑ p : Fin 4096, gsq ((Finset.univ : Finset (Fin 2)).inf fun q => a5 (ix3 q (0 : Fin 1) p)) := by
  unfold csumT
  have hy : ∀ p : Fin 4096,
      Host.sqrt (maximumf (cminT a5)
        (broadcastInDim S4096 ![] bcast_S_S4096 (constant (F := Ideal) S_ .f32 0x00000000#32))) (ix1 p)
        = gsq ((Finset.univ : Finset (Fin 2)).inf fun q => a5 (ix3 q (0 : Fin 1) p)) := fun p => by
    show Ideal.sqrt (max (cminT a5 (ix1 p)) (Ideal.ofBits .f32 0x00000000#32)) = _
    rw [cminT_apply, Ideal.ofBits_zero_f32]
    rfl
  generalize Host.sqrt (maximumf (cminT a5)
    (broadcastInDim S4096 ![] bcast_S_S4096 (constant (F := Ideal) S_ .f32 0x00000000#32))) = y at hy ⊢
  simp only [Host.reduceAdd, Ideal.hostReduceAdd_def]
  refine (Ideal.hostReduceAdd_total reducesTo_S4096_S_d0 (fun b => b.elim0) y _ ix0).trans ?_
  rw [← Equiv.sum_comp (idxEquiv1 (n := 4096)).symm y]
  show Ideal.ofBits .f32 0x00000000#32 + ∑ p : Fin 4096, y (ix1 p) = _
  rw [Ideal.ofBits_zero_f32, zero_add]
  exact Finset.sum_congr rfl fun p _ => hy p

/-- The loss at its one index. -/
theorem lossTail_apply (a5 : FVec Ideal S2x1x4096 .f32) (a6 : FVec Ideal S2x1x1 .f32) :
    lossTail a5 a6 ix0
      = Ideal.ofBits .f32 0x3F000000#32
          * Ideal.div (∑ q : Fin 2, a6 (ix3 q (0 : Fin 1) (0 : Fin 1))) (Ideal.ofBits .f32 0x47000000#32)
        + Ideal.ofBits .f32 0x3F000000#32
          * Ideal.div (∑ p : Fin 4096, gsq ((Finset.univ : Finset (Fin 2)).inf fun q => a5 (ix3 q (0 : Fin 1) p)))
              (Ideal.ofBits .f32 0x45800000#32) := by
  unfold lossTail
  rw [combine_apply, rsumT_apply, csumT_apply]

/-! ## The host lines after the region, read off the region's arrays -/

section Tail

variable (m : (ℓ : Loc nD τ sig) → Buf (Elt Ideal) ℓ)

/-- The arrays the host lines read: the region's arrays where it wrote them, the entry contents elsewhere. -/
abbrev tailArr (c : Dev nD) (b : Ref sig .tc) :=
  Pipeline.withArrays spec0 c (V0 m c) (fun w => (dats m 0 c).arrAt w cfg0.N) (Proc.devRef .tc b)

theorem tail_loss (c : Dev nD) :
    Pipeline.afterTail₀ cfgs (dats m) 0 (V0 m) [hostOps1] c main_v18
      = lossTail (tailArr m c main_v5_2) (tailArr m c main_v5_3) := by
  unfold Pipeline.afterTail₀
  show StableHlo.after hostOps1 _ (Proc.devRef .tc main_v18) = _
  after_results
  rfl

set_option maxHeartbeats 4000000 in
set_option maxRecDepth 8192 in
theorem tail_sum3 (c : Dev nD) :
    Pipeline.afterTail₀ cfgs (dats m) 0 (V0 m) [hostOps1] c main_v21
      = addf (addf (tailArr m c main_arg2 : FVec Ideal S_ .f32)
          (mulf (constant (F := Ideal) S_ .f32 0x3F000000#32) (tailArr m c main_arg3 : FVec Ideal S_ .f32)))
          (tailArr m c main_arg4 : FVec Ideal S_ .f32) := by
  unfold Pipeline.afterTail₀
  show StableHlo.after hostOps1 _ (Proc.devRef .tc main_v21) = _
  after_results

/-- The region's arrays, as the host lines find them. -/
theorem tailArr_5 (c : Dev nD) : tailArr m c main_v5_2 = G5 (colMin m c) :=
  (Pipeline.withArrays_arr spec0 launch0.win.arr_inj c _ _ 5).trans (final5 m c)

theorem tailArr_6 (c : Dev nD) : tailArr m c main_v5_3 = G6 (rowSum m c) :=
  (Pipeline.withArrays_arr spec0 launch0.win.arr_inj c _ _ 6).trans (final6 m c)

/-- An input no window stages is as launched. -/
theorem tailArr_arg2 (c : Dev nD) : tailArr m c main_arg2 = m ((c : Thread nD τ).loc main_arg2) :=
  (Pipeline.withArrays_of_ne _ c (V0 m c) _ main_arg2 (by exact (by decide : ∀ w, Pipeline.arrRef spec0 w ≠ main_arg2))).trans
    (V_main_arg2 m c)
theorem tailArr_arg3 (c : Dev nD) : tailArr m c main_arg3 = m ((c : Thread nD τ).loc main_arg3) :=
  (Pipeline.withArrays_of_ne _ c (V0 m c) _ main_arg3 (by exact (by decide : ∀ w, Pipeline.arrRef spec0 w ≠ main_arg3))).trans
    (V_main_arg3 m c)
theorem tailArr_arg4 (c : Dev nD) : tailArr m c main_arg4 = m ((c : Thread nD τ).loc main_arg4) :=
  (Pipeline.withArrays_of_ne _ c (V0 m c) _ main_arg4 (by exact (by decide : ∀ w, Pipeline.arrRef spec0 w ≠ main_arg4))).trans
    (V_main_arg4 m c)

end Tail

end Cert.KernelIdeal.Val

end
-- ==== Proof.KValue.lean ====
/-
  The kernel's run, read: its four results as functions of its inputs.
  The squared distance the body forms at a tile's row is the row reading `d2Row` of the input's row
  and the weight row, the weight row's squared norm `∑ₖ W[p,k]²` being what the host lines before the
  region leave in the row vector; so the four results are the normalized array, the logits, the sum of
  three inputs with the middle one halved, and the loss over the per-core minima and sums.
-/
import proofs.«400168_j37958920962068_3_alg».proof.Proof.KTail

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Spec

/-- The row vector of the weight rows' squared norms, read at a column. -/
theorem w2row_apply (W : FVec Ideal S4096x512 .f32) (p : Fin 4096) :
    transpose S1x4096 [1, 0] (broadcastInDim S4096x1 ![0] bcast_S4096_S4096x1_0
        (Host.reduceAdd (mulf W W) (constant (F := Ideal) S_ .f32 0x00000000#32) reducesTo_S4096x512_S4096_d1 h_S_))
        transposes_S4096x1_S1x4096_1_0 (ix2 (0 : Fin 1) p)
      = ∑ k : Fin 512, W (ix2 p k) * W (ix2 p k) := by
  refine (transpose_apply [1, 0] _ transposes_S4096x1_S1x4096_1_0 (ix2 (0 : Fin 1) p) (ix2 p (0 : Fin 1))
    (fun b => match b with | ⟨0, _⟩ => rfl | ⟨1, _⟩ => rfl)).trans ?_
  refine (broadcastInDim_apply _ bcast_S4096_S4096x1_0 _ (ix2 p (0 : Fin 1)) (ix1 p) (fun a => match a with
    | ⟨0, _⟩ => by show p.val = if (4096 : Nat) = 1 then 0 else p.val; rw [if_neg (by decide)])).trans ?_
  have hy : ∀ k : Fin 512, mulf W W (ix2 p k) = W (ix2 p k) * W (ix2 p k) := fun k => rfl
  generalize mulf W W = y0 at hy ⊢
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  refine Finset.sum_congr rfl fun k _ => ?_
  exact (congrArg y0 (funext fun a => Fin.ext (by match a with | ⟨0, _⟩ => rfl | ⟨1, _⟩ => rfl))).trans (hy k)

section Run

variable (m : (ℓ : Loc nD τ sig) → Buf (Elt Ideal) ℓ) (ρ : Dev nD → PrngReg)

/-- The input array and the weight array at launch. -/
abbrev xarr (c : Dev nD) : FVec Ideal S32768x512 .f32 := m ((c : Thread nD τ).loc main_arg0)
abbrev warr (c : Dev nD) : FVec Ideal S4096x512 .f32 := m ((c : Thread nD τ).loc main_arg1)

/-- The squared distance the body forms is the row reading over the launch arrays. -/
theorem kd2_eq (c : Dev nD) (t : Fin cfg0.N) (r : Fin 256) (p : Fin 4096) :
    kd2 m c t r p
      = d2Row (fun k => xarr m c (ix2 (trow t r) k)) (fun k => warr m c (ix2 p k))
          (∑ k : Fin 512, warr m c (ix2 p k) * warr m c (ix2 p k)) := by
  unfold kd2
  rw [pay7_apply, iblk2_apply, V_main_v4, w2row_apply]
  congr 1
  · funext k; rw [iblk0_apply, V_main_arg0]
  · funext k; rw [iblk1_apply, V_main_v0]; rfl

/-- The loss the kernel's program returns. -/
def lossK (c : Dev nD) : FVec Ideal S_ .f32 := lossTail (G5 (colMin m c)) (G6 (rowSum m c))

/-- The sum of three inputs, the middle one halved. -/
def sum3 (a2 a3 a4 : FVec Ideal S_ .f32) : FVec Ideal S_ .f32 :=
  addf (addf a2 (mulf (constant (F := Ideal) S_ .f32 0x3F000000#32) a3)) a4

/-- Every weakly fair execution of the kernel's program terminates with its four results at these functions
    of its inputs, the inputs unchanged. -/
theorem run : θ_run defs (onTc (τ := τ) (main (F := Ideal))) ⟨m, fun _ => 0, ρ⟩ fun r => ∀ c : Dev nD,
      r.2.mem ((c.tc : Thread nD τ).loc main_v5_0) = G3 (m ((c.tc : Thread nD τ).loc main_arg0))
      ∧ r.2.mem ((c.tc : Thread nD τ).loc main_v5_1)
          = G4 (m ((c.tc : Thread nD τ).loc main_arg0)) (m ((c.tc : Thread nD τ).loc main_arg1))
      ∧ r.2.mem ((c.tc : Thread nD τ).loc main_v21)
          = sum3 (m ((c.tc : Thread nD τ).loc main_arg2)) (m ((c.tc : Thread nD τ).loc main_arg3)) (m ((c.tc : Thread nD τ).loc main_arg4))
      ∧ r.2.mem ((c.tc : Thread nD τ).loc main_v18) = lossK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 3).trans ((final3 m c).trans (by rw [V_main_arg0])),
      ((h c).1 4).trans ((final4 m c).trans (by
        rw [V_main_arg0, V_main_v0]
        funext i
        rfl)),
      ((h c).2 main_v21 (Pipeline.mem_restRefs_of main_v21 (by decide) (by decide))).trans ((tail_sum3 m c).trans (by
        rw [tailArr_arg2, tailArr_arg3, tailArr_arg4]
        rfl)),
      ((h c).2 main_v18 (Pipeline.mem_restRefs_of main_v18 (by decide) (by decide))).trans ((tail_loss m c).trans (by
        rw [tailArr_5, tailArr_6]
        rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Run

end Cert.KernelIdeal.Val

end
-- ==== Proof.RefIdx.lean ====
/-
  The reference's stages at the extended reals, read one entry at a time: the normalized array,
  the logits and the squared distances are the row readings `xnRow`, `logitRow`, `d2Row`; a distance
  is the clamped root of a squared distance; the row and column minima are infima over an axis; and
  the loss is half the mean of the row minima plus half the mean of the column minima.
-/
import proofs.«400168_j37958920962068_3_alg».proof.Proof.Gen.ReferenceIdeal.Read
import proofs.«400168_j37958920962068_3_alg».proof.Proof.Spec
import Idealize.ShloMosaic.Lib.Pipeline.Value
import Idealize.ShloMosaic.Lib.ValueIdx
import Idealize.ShloMosaic.Lib.ValueIdxRank1
import Idealize.ShloMosaic.PureOps.Ideal.Laws
import Idealize.ShloMosaic.PureOps.Reduce

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read Cert.Spec

/-- The input array and the weight array, at the extended reals. -/
abbrev XArr := (⟨S32768x512, .f32⟩ : BufTy).Contents (Elt Ideal)
abbrev WArr := (⟨S4096x512, .f32⟩ : BufTy).Contents (Elt Ideal)

/-- An entry of the normalized array is the entry of the input divided by its row's clamped norm: every
    stage between the input and the quotient reads one element, the row's sum of squares runs over the
    row's own entries, and the zero initial value of that sum drops. -/
theorem xn_apply (x0 : XArr) (n : Fin 32768) (k : Fin 512) :
    val_main_v4 (F := Ideal) x0 (ix2 n k) = xnRow (fun k' => x0 (ix2 n k')) k := by
  have e1 : ∀ k' : Fin 512, idx_main_call0_v1 (idx_main_call0_v2 (idx_main_v3 (ix2 n k))) k' = ix2 n k' := fun k' =>
    funext fun a => Fin.ext (by match a with | ⟨0, _⟩ => rfl | ⟨1, _⟩ => rfl)
  simp only [val_main_v4_apply, val_main_v3_apply, val_main_v2_apply, val_main_v0_apply, val_main_call0_v2_apply,
    val_main_call0_v1_apply, val_main_call0_v0_apply, val_main_call0_cst_apply, val_main_v1_apply, val_main_cst_apply, e1,
    Ideal.hostDivf_def, Ideal.maximumf_def, Ideal.hostUnary_sqrt_def, Ideal.mulf_def, Ideal.ofBits_def, Ideal.ofBits_zero_f32, zero_add]
  rfl

/-- A logit is the inner product of a normalized row with a weight row: the contraction runs over the
    shared axis, and the transposed weights at (k, p) are the weights at (p, k). -/
theorem logits_apply (x0 : XArr) (x1 : WArr) (n : Fin 32768) (p : Fin 4096) :
    val_main_v6 (F := Ideal) x0 x1 (ix2 n p) = logitRow (fun k => x0 (ix2 n k)) (fun k => x1 (ix2 p k)) := by
  have el : ∀ k : Fin 512, lidx_main_v6 (ix2 n p) k = ix2 n k := fun k =>
    funext fun a => Fin.ext (by match a with | ⟨0, _⟩ => rfl | ⟨1, _⟩ => rfl)
  have er : ∀ k : Fin 512, idx_main_v5 (ridx_main_v6 (ix2 n p) k) = ix2 p k := fun k =>
    funext fun a => Fin.ext (by match a with | ⟨0, _⟩ => rfl | ⟨1, _⟩ => rfl)
  simp only [val_main_v6_apply, val_main_v5_apply, el, er, xn_apply]
  rfl

/-- A squared distance is the normalized row's squared norm plus the weight row's squared norm, less twice
    their inner product: the two squared norms are broadcast along the other axis, so each is read at its
    own row, and the second contraction is the first one again. -/
theorem d2_apply (x0 : XArr) (x1 : WArr) (n : Fin 32768) (p : Fin 4096) :
    val_main_v21 (F := Ideal) x0 x1 (ix2 n p)
      = d2Row (fun k => x0 (ix2 n k)) (fun k => x1 (ix2 p k)) (∑ k : Fin 512, x1 (ix2 p k) * x1 (ix2 p k)) := by
  have ea : ∀ k : Fin 512, idx_main_v8 (idx_main_v9 (idx_main_v14 (ix2 n p))) k = ix2 n k := fun k =>
    funext fun a => Fin.ext (by match a with | ⟨0, _⟩ => rfl | ⟨1, _⟩ => rfl)
  have eb : ∀ k : Fin 512, idx_main_v11 (idx_main_v12 (idx_main_v13 (idx_main_v15 (ix2 n p)))) k = ix2 p k := fun k =>
    funext fun a => Fin.ext (by match a with | ⟨0, _⟩ => rfl | ⟨1, _⟩ => rfl)
  have el : ∀ k : Fin 512, lidx_main_v18 (ix2 n p) k = ix2 n k := fun k =>
    funext fun a => Fin.ext (by match a with | ⟨0, _⟩ => rfl | ⟨1, _⟩ => rfl)
  have er : ∀ k : Fin 512, idx_main_v17 (ridx_main_v18 (ix2 n p) k) = ix2 p k := fun k =>
    funext fun a => Fin.ext (by match a with | ⟨0, _⟩ => rfl | ⟨1, _⟩ => rfl)
  simp only [val_main_v21_apply, val_main_v16_apply, val_main_v14_apply, val_main_v9_apply, val_main_v8_apply,
    val_main_v7_apply, val_main_cst_0_apply, val_main_v15_apply, val_main_v13_apply, val_main_v12_apply,
    val_main_v11_apply, val_main_v10_apply, val_main_cst_1_apply, val_main_v20_apply, val_main_v19_apply,
    val_main_cst_2_apply, val_main_v18_apply, val_main_v17_apply, ea, eb, el, er, xn_apply,
    Ideal.subf_def, Ideal.addf_def, Ideal.mulf_def, Ideal.ofBits_def, Ideal.ofBits_zero_f32, zero_add]
  rfl

/-- A distance is the root of the squared distance clamped below at zero. -/
theorem dist_apply (x0 : XArr) (x1 : WArr) (n : Fin 32768) (p : Fin 4096) :
    val_main_v24 (F := Ideal) x0 x1 (ix2 n p) = gsq (val_main_v21 (F := Ideal) x0 x1 (ix2 n p)) := by
  simp only [val_main_v24_apply, val_main_v23_apply, val_main_v22_apply, val_main_cst_3_apply,
    Ideal.hostUnary_sqrt_def, Ideal.maximumf_def, Ideal.ofBits_def, Ideal.ofBits_zero_f32]
  rfl

/-- Folding the minimum from the top element over a finite set is the set's infimum. -/
private theorem fold_min_top {ι : Type} (s : Finset ι) (f : ι → EReal) :
    s.fold (FloatOps.minimumf (F := Ideal) (φ := .f32)) (⊤ : EReal) f = s.inf f := by
  classical
  refine Finset.induction_on s ?_ ?_
  · rw [Finset.fold_empty, Finset.inf_empty]
  · intro a s ha ih
    rw [Finset.fold_insert ha, Finset.inf_insert, ih]
    rfl

/-- The same over a whole coordinate range, for a family given entry by entry. -/
private theorem fold_min_top_univ {m : Nat} (g g' : Fin m → EReal) (hg : ∀ p, g p = g' p) :
    (Finset.univ : Finset (Fin m)).fold (FloatOps.minimumf (F := Ideal) (φ := .f32)) (⊤ : EReal) g
      = (Finset.univ : Finset (Fin m)).inf g' := by
  rw [funext hg]; exact fold_min_top _ _

/-- The word of the positive infinity is the top element. -/
private theorem inf_word : Ideal.ofBits .f32 0x7F800000#32 = (⊤ : EReal) := by
  simp [Ideal.ofBits, Ideal.ieee]

/-- A row minimum is the infimum of the row's distances: the reduction over the second axis folds the
    minimum, from positive infinity, over the entries whose first coordinate is the row. -/
theorem rowmin_apply (x0 : XArr) (x1 : WArr) (n : Fin 32768) :
    val_main_v25 (F := Ideal) x0 x1 (ix1 n)
      = (Finset.univ : Finset (Fin 4096)).inf fun p => val_main_v24 (F := Ideal) x0 x1 (ix2 n p) := by
  unfold val_main_v25
  generalize val_main_v24 (F := Ideal) x0 x1 = y
  have h : S32768x4096.Reduces [1] S32768 := by decide
  refine (Host.reduce_eq_fold_single _ _ _ reducesTo_S32768x4096_S32768_d1 h h_S_ (ix1 n)).trans ?_
  rw [val_main_cst_4_apply, Ideal.ofBits_def, inf_word]
  exact fold_min_top_univ (m := 4096) _ _ fun p => congrArg y (funext fun c => Fin.ext (by
    show h.liftVal (ix1 n) p.val c = (ix2 n p c).val
    match c with
    | ⟨0, _⟩ => rfl
    | ⟨1, _⟩ => rfl))

/-- A column minimum is the infimum of the column's distances: the reduction over the first axis folds
    the minimum, from positive infinity, over the entries whose second coordinate is the column. -/
theorem colmin_apply (x0 : XArr) (x1 : WArr) (p : Fin 4096) :
    val_main_v29 (F := Ideal) x0 x1 (ix1 p)
      = (Finset.univ : Finset (Fin 32768)).inf fun n => val_main_v24 (F := Ideal) x0 x1 (ix2 n p) := by
  unfold val_main_v29
  generalize val_main_v24 (F := Ideal) x0 x1 = y
  have h : S32768x4096.Reduces [0] S4096 := by decide
  refine (Host.reduce_eq_fold_single _ _ _ reducesTo_S32768x4096_S4096_d0 h h_S_ (ix1 p)).trans ?_
  rw [val_main_cst_8_apply, Ideal.ofBits_def, inf_word]
  exact fold_min_top_univ (m := 32768) _ _ fun n => congrArg y (funext fun c => Fin.ext (by
    show h.liftVal (ix1 p) n.val c = (ix2 n p c).val
    match c with
    | ⟨0, _⟩ => rfl
    | ⟨1, _⟩ => rfl))

/-- The loss: half the mean of the row minima plus half the mean of the column minima. Each mean is a
    sum over every index of a one-axis array, which is the sum over the axis's coordinates, divided by
    the count; the zero initial values of the two sums drop. -/
theorem loss_apply (x0 : XArr) (x1 : WArr) :
    val_main_v33 (F := Ideal) x0 x1 ix0
      = Ideal.ofBits .f32 0x3F000000#32 * Ideal.div (∑ n : Fin 32768, val_main_v25 (F := Ideal) x0 x1 (ix1 n)) (Ideal.ofBits .f32 0x47000000#32)
        + Ideal.ofBits .f32 0x3F000000#32 * Ideal.div (∑ p : Fin 4096, val_main_v29 (F := Ideal) x0 x1 (ix1 p)) (Ideal.ofBits .f32 0x45800000#32) := by
  simp only [val_main_v33_apply, val_main_v28_apply, val_main_v27_apply, val_main_v26_apply, val_main_cst_5_apply,
    val_main_cst_6_apply, val_main_cst_7_apply, val_main_v32_apply, val_main_v31_apply, val_main_v30_apply,
    val_main_cst_9_apply, val_main_cst_10_apply, val_main_cst_11_apply,
    Ideal.addf_def, Ideal.mulf_def, Ideal.hostDivf_def, Ideal.ofBits_def, Ideal.ofBits_zero_f32, zero_add]
  generalize val_main_v25 (F := Ideal) x0 x1 = r
  generalize val_main_v29 (F := Ideal) x0 x1 = c
  rw [← Equiv.sum_comp (idxEquiv1 (n := 32768)).symm r, ← Equiv.sum_comp (idxEquiv1 (n := 4096)).symm c]
  rfl

end Cert.ReferenceIdeal.RefVal

end
-- ==== Proof.Bridge.lean ====
/-
  The two programs compute one function.
  Entry by entry the reference's normalized array and logits are the same row readings as the
  kernel's. For the loss, write `D2 n p` for the squared distance of input row `n` to weight row `p`.
  The reference takes the clamped root of every squared distance first and then the row and column
  minima; the kernel takes the minima of the squared distances first, per tile and per core, and the
  clamped roots of the minima. The clamped root is monotone, so it commutes with a minimum, and the
  tiles of the two cores are all the rows, once each: the row sums and the column minima agree.
-/
import proofs.«400168_j37958920962068_3_alg».proof.Proof.KValue
import proofs.«400168_j37958920962068_3_alg».proof.Proof.RefIdx

noncomputable section

open Idealize.ShloMosaic Idealize.ShloMosaic.TcCoe Idealize.SL.Sem Idealize.ShloMosaic.ValueIdx

namespace Cert.Bridge

open Cert.Spec Cert.KernelIdeal.Val Cert.ReferenceIdeal.RefVal Cert.ReferenceIdeal.Read

/-- The squared distance of input row `n` to weight row `p`. -/
def D2 (X : XArr) (W : WArr) (n : Fin 32768) (p : Fin 4096) : EReal :=
  d2Row (fun k => X (ix2 n k)) (fun k => W (ix2 p k)) (∑ k : Fin 512, W (ix2 p k) * W (ix2 p k))

/-- The reference's normalized array is the kernel's. -/
theorem xn_eq (X : XArr) : val_main_v4 (F := Ideal) X = G3 X := by
  funext i
  obtain ⟨n, k, rfl⟩ : ∃ (n : Fin 32768) (k : Fin 512), i = ix2 n k := ⟨i 0, i 1, eq_ix2 i⟩
  rw [xn_apply]
  rfl

/-- The reference's logits are the kernel's. -/
theorem logits_eq (X : XArr) (W : WArr) : val_main_v6 (F := Ideal) X W = G4 X W := by
  funext i
  obtain ⟨n, p, rfl⟩ : ∃ (n : Fin 32768) (p : Fin 4096), i = ix2 n p := ⟨i 0, i 1, eq_ix2 i⟩
  rw [logits_apply]
  rfl

/-- The reference's row minimum of the distances. -/
theorem ref_rowmin (X : XArr) (W : WArr) (n : Fin 32768) :
    val_main_v25 (F := Ideal) X W (ix1 n) = (Finset.univ : Finset (Fin 4096)).inf fun p => gsq (D2 X W n p) := by
  rw [rowmin_apply]
  refine Finset.inf_congr rfl fun p _ => ?_
  rw [dist_apply, d2_apply]
  rfl

/-- The reference's column minimum of the distances. -/
theorem ref_colmin (X : XArr) (W : WArr) (p : Fin 4096) :
    val_main_v29 (F := Ideal) X W (ix1 p) = (Finset.univ : Finset (Fin 32768)).inf fun n => gsq (D2 X W n p) := by
  rw [colmin_apply]
  refine Finset.inf_congr rfl fun n _ => ?_
  rw [dist_apply, d2_apply]
  rfl

section Kernel

variable (m : (ℓ : Loc Cert.KernelIdeal.nD Cert.KernelIdeal.τ Cert.KernelIdeal.sig) → Buf (Elt Ideal) ℓ)

/-- The kernel's input and weight arrays at launch. -/
abbrev kX (c : Dev Cert.KernelIdeal.nD) : XArr := m ((c.tc : Thread Cert.KernelIdeal.nD Cert.KernelIdeal.τ).loc Cert.KernelIdeal.main_arg0)
abbrev kW (c : Dev Cert.KernelIdeal.nD) : WArr := m ((c.tc : Thread Cert.KernelIdeal.nD Cert.KernelIdeal.τ).loc Cert.KernelIdeal.main_arg1)

/-- The squared distance the body forms at row `r` of tile `s` of core `q` is that of the row's place in the input. -/
theorem kd2_D2 (c : Dev Cert.KernelIdeal.nD) (q : Fin 2) (s : Fin 64) (r : Fin 256) (p : Fin 4096) :
    kd2 m c (pt q s) r p = D2 (kX m c) (kW m c) (rowIdx (tileIdx q s) r) p := by
  rw [kd2_eq]
  have e : trow (pt q s) r = rowIdx (tileIdx q s) r := Fin.ext rfl
  rw [e]
  rfl

/-- The kernel's row sums, added over the cores, are the sum of the reference's row minima. -/
theorem rowSum_eq (c : Dev Cert.KernelIdeal.nD) :
    ∑ q : Fin 2, rowSum m c q
      = ∑ n : Fin 32768, (Finset.univ : Finset (Fin 4096)).inf fun p => gsq (D2 (kX m c) (kW m c) n p) := by
  unfold rowSum tileRowSum
  simp only [kd2_D2]
  exact row_side (D2 (kX m c) (kW m c))

/-- The clamped root of the minimum over the cores of the kernel's column minima is the reference's column minimum. -/
theorem colMin_eq (c : Dev Cert.KernelIdeal.nD) (p : Fin 4096) :
    gsq ((Finset.univ : Finset (Fin 2)).inf fun q => colMin m c q p)
      = (Finset.univ : Finset (Fin 32768)).inf fun n => gsq (D2 (kX m c) (kW m c) n p) := by
  unfold colMin tileColMin
  simp only [kd2_D2]
  exact col_side (fun n => D2 (kX m c) (kW m c) n p)

/-- The reference's loss is the kernel's. -/
theorem loss_eq (c : Dev Cert.KernelIdeal.nD) :
    val_main_v33 (F := Ideal) (kX m c) (kW m c) = lossK m c := by
  funext i
  obtain rfl : i = ix0 := eq_ix0 i
  rw [loss_apply]
  unfold lossK
  rw [lossTail_apply]
  have hr : ∑ n : Fin 32768, val_main_v25 (F := Ideal) (kX m c) (kW m c) (ix1 n)
      = ∑ q : Fin 2, G6 (rowSum m c) (ix3 q (0 : Fin 1) (0 : Fin 1)) := by
    rw [Finset.sum_congr rfl fun n _ => ref_rowmin (kX m c) (kW m c) n]
    exact (rowSum_eq m c).symm
  have hc : ∀ p : Fin 4096, val_main_v29 (F := Ideal) (kX m c) (kW m c) (ix1 p)
      = gsq ((Finset.univ : Finset (Fin 2)).inf fun q => G5 (colMin m c) (ix3 q (0 : Fin 1) p)) := fun p => by
    rw [ref_colmin]
    exact (colMin_eq m c p).symm
  rw [hr, Finset.sum_congr rfl fun p _ => hc p]

end Kernel

end Cert.Bridge

end
-- ==== Proof.lean ====
/-
  The kernel normalizes the rows of `x` (each row divided by `max ‖row‖ ε`), returns the normalized rows
  and their inner products with the rows of `W`, a weighted sum of three scalar inputs, and a loss: half
  the mean over the rows of the distance to the nearest weight row plus half the mean over the weight
  rows of the distance to the nearest row, the distance being `√(max (‖xn‖² + ‖w‖² − 2⟨xn, w⟩) 0)`.

  The reference takes the root of every squared distance and then the minima. The kernel works tile by
  tile on two cores: it keeps, per core, the column minima of the SQUARED distances and the sum of the
  clamped roots of the row minima of the squared distances, and the host lines after it combine the two
  cores and take the clamped root of the column minima. Over the extended reals the two agree because
  the clamped root `√(max · 0)` is monotone and keeps the top element, hence commutes with a finite
  minimum, and because the tiles of the two cores are all the rows, once each; sums and minima may be
  regrouped freely. Format changes are the identity at the ideal instance, so the half-width operands of
  the kernel's matrix product are the normalized rows and the weight rows themselves.

  The frames of the two kernel programs are the generated frame certificates; the reference's frame is
  its run with the results dropped; the ideal pass rewrote nothing.
-/
import proofs.«400168_j37958920962068_3_alg».proof.Defs
import proofs.«400168_j37958920962068_3_alg».proof.Proof.Gen.Kernel
import proofs.«400168_j37958920962068_3_alg».proof.Proof.Gen.Kernel.Skeleton
import proofs.«400168_j37958920962068_3_alg».proof.Proof.Gen.Kernel.Launch
import proofs.«400168_j37958920962068_3_alg».proof.Proof.Gen.Kernel.Points
import proofs.«400168_j37958920962068_3_alg».proof.Proof.Gen.Kernel.Frame
import proofs.«400168_j37958920962068_3_alg».proof.Proof.Gen.KernelIdeal
import proofs.«400168_j37958920962068_3_alg».proof.Proof.Gen.KernelIdeal.Skeleton
import proofs.«400168_j37958920962068_3_alg».proof.Proof.Gen.KernelIdeal.Launch
import proofs.«400168_j37958920962068_3_alg».proof.Proof.Gen.KernelIdeal.Points
import proofs.«400168_j37958920962068_3_alg».proof.Proof.Gen.KernelIdeal.Frame
import proofs.«400168_j37958920962068_3_alg».proof.Proof.Gen.ReferenceIdeal
import proofs.«400168_j37958920962068_3_alg».proof.Proof.Gen.ReferenceIdeal.Run
import proofs.«400168_j37958920962068_3_alg».proof.Proof.Gen.ReferenceIdeal.Read
import proofs.«400168_j37958920962068_3_alg».proof.Proof.Gen.Pre_finite_inputs
import proofs.«400168_j37958920962068_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

theorem preserves : Cert.preserves_Kernel_KernelIdeal := trivial

/-- From memories agreeing on the inputs both programs end with the normalized array, the logits, the
    weighted sum of the three scalars and the loss, each the same function of the inputs. -/
theorem algebraic : Cert.algebraic_KernelIdeal_ReferenceIdeal := by
  intro m ρ m' ρ' _ hagree
  refine ⟨fun c => Cert.KernelIdeal.Val.G3 (Cert.Bridge.kX m c),
    fun c => Cert.KernelIdeal.Val.G4 (Cert.Bridge.kX m c) (Cert.Bridge.kW m c),
    fun c => Cert.KernelIdeal.Val.sum3
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.KernelIdeal.Val.lossK m c, Cert.KernelIdeal.Val.run m ρ, ?_⟩
  refine (θ_run Cert.ReferenceIdeal.defs _ _).mono (fun _ h c => ?_)
    (Cert.ReferenceIdeal.Value.run (F := Ideal) m' ρ')
  obtain ⟨h4, h6, h36, h33, hargs⟩ := h c
  obtain ⟨e0, e1, e2, e3, e4⟩ := hagree c
  refine ⟨h4.trans ?_, h6.trans ?_, h36.trans ?_, h33.trans ?_, hargs⟩
  · rw [e0]
    exact (Cert.ReferenceIdeal.Read.val_main_v4_eq _).trans (Cert.Bridge.xn_eq _)
  · rw [e0, e1]
    exact (Cert.ReferenceIdeal.Read.val_main_v6_eq _ _).trans (Cert.Bridge.logits_eq _ _)
  · rw [e2, e3, e4]
    rfl
  · rw [Cert.ReferenceIdeal.Read.val_main_v33_eq, e0, e1]
    exact Cert.Bridge.loss_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
